-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S1000000x3 : Shape := ⟨2, ![1000000, 3]⟩
abbrev S100000 : Shape := ⟨1, ![100000]⟩
abbrev S128x128 : Shape := ⟨2, ![128, 128]⟩
abbrev S5x128 : Shape := ⟨2, ![5, 128]⟩
abbrev S_ : Shape := ⟨0, ![]⟩
abbrev S128 : Shape := ⟨1, ![128]⟩
abbrev S1000000x1 : Shape := ⟨2, ![1000000, 1]⟩
abbrev S1000000 : Shape := ⟨1, ![1000000]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S5x128 : S_.BroadcastsInDim S5x128 (![] : Fin 0 → Fin S5x128.rank)
  reducesTo_S5x128_S_d0_1 : S5x128.ReducesTo [0, 1] S_
  reducesTo_S_S_d : S_.ReducesTo [] S_
  bcast_S_S128 : S_.BroadcastsInDim S128 (![] : Fin 0 → Fin S128.rank)
  reducesTo_S128_S_d0 : S128.ReducesTo [0] S_
  bcast_S_S500000 : S_.BroadcastsInDim S500000 (![] : Fin 0 → Fin S500000.rank)
  reducesTo_S500000_S_d0 : S500000.ReducesTo [0] S_
  slices_S1000000x3_S1000000x1_0_2 : S1000000x3.Slices ![0, 2] S1000000x1
  shapeCasts_S1000000x1_S1000000 : S1000000x1.ShapeCasts S1000000
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_arg0 : IVec S500000 32) (main_arg1 : IVec S1000000x3 32) (main_v32 : IVec S_ 1) (main_c_12 : IVec S_ 32) : IVec S_ 1 :=
  let main_v33 : IVec S500000 32 := broadcastInDim S500000 ![] bcast_S_S500000 main_c_12
  let main_v34 : IVec S500000 1 := cmpi .sge main_arg0 main_v33
  let main_c_13 : IVec S_ 32 := constantI S_ 32 128#32
  let main_v35 : IVec S500000 32 := broadcastInDim S500000 ![] bcast_S_S500000 main_c_13
  let main_v36 : IVec S500000 1 := cmpi .slt main_arg0 main_v35
  let main_v37 : IVec S500000 1 := andi main_v34 main_v36
  let main_c_14 : IVec S_ 1 := constantI S_ 1 1#1
  let main_v38 : IVec S_ 1 := (fun x v => Host.reduce IntOp.andi x v reducesTo_S500000_S_d0 h_S_) main_v37 main_c_14
  let main_v39 : IVec S_ 1 := andi main_v32 main_v38
  let main_v40 : IVec S1000000x1 32 := (extractStridedSlice S1000000x1 ![0, 2] · slices_S1000000x3_S1000000x1_0_2) main_arg1
  let main_v41 : IVec S1000000 32 := shapeCast S1000000 main_v40 shapeCasts_S1000000x1_S1000000
  let main_c_15 : IVec S_ 32 := constantI S_ 32 0#32
  let main_v42 : IVec S1000000 32 := broadcastInDim S1000000 ![] bcast_S_S1000000 main_c_15
  let main_v43 : IVec S1000000 1 := cmpi .sge main_v41 main_v42
  let main_v44 : IVec S1000000x1 32 := (extractStridedSlice S1000000x1 ![0, 2] · slices_S1000000x3_S1000000x1_0_2) main_arg1
  let main_v45 : IVec S1000000 32 := shapeCast S1000000 main_v44 shapeCasts_S1000000x1_S1000000
  let main_c_16 : IVec S_ 32 := constantI S_ 32 5#32
  let main_v46 : IVec S1000000 32 := broadcastInDim S1000000 ![] bcast_S_S1000000 main_c_16
  let main_v47 : IVec S1000000 1 := cmpi .slt main_v45 main_v46
  let main_v48 : IVec S1000000 1 := andi main_v43 main_v47
  let main_c_17 : IVec S_ 1 := constantI S_ 1 1#1
  let main_v49 : IVec S_ 1 := (fun x v => Host.reduce IntOp.andi x v reducesTo_S1000000_S_d0 h_S_) main_v48 main_c_17
  let main_v50 : IVec S_ 1 := andi main_v39 main_v49
  main_v50

def fn_part1 {F : FTy → Type} [FloatOps F] (main_arg0 : IVec S500000 32) (main_arg1 : IVec S1000000x3 32) (main_arg8 : FVec F S128 .f32) (main_arg9 : FVec F S128x128 .f32) (main_arg10 : FVec F S128 .f32) (main_v12 : IVec S_ 1) (main_v15 : IVec S128x128 1) (main_c_5 : IVec S_ 1) : IVec S_ 1 :=
  let main_v16 : IVec S_ 1 := (fun x v => Host.reduce IntOp.andi x v reducesTo_S128x128_S_d0_1 h_S_) main_v15 main_c_5
  let main_v17 : IVec S_ 1 := andi main_v12 main_v16
  let main_v18 : FVec F S128 .f32 := Host.absf main_arg8
  let main_cst_6 : FVec F S_ .f32 := constant S_ .f32 0x7F800000#32
  let main_v19 : FVec F S128 .f32 := broadcastInDim S128 ![] bcast_S_S128 main_cst_6
  let main_v20 : IVec S128 1 := cmpf .olt main_v18 main_v19
  let main_c_7 : IVec S_ 1 := constantI S_ 1 1#1
  let main_v21 : IVec S_ 1 := (fun x v => Host.reduce IntOp.andi x v reducesTo_S128_S_d0 h_S_) main_v20 main_c_7
  let main_v22 : IVec S_ 1 := andi main_v17 main_v21
  let main_v23 : FVec F S128x128 .f32 := Host.absf main_arg9
  let main_cst_8 : FVec F S_ .f32 := constant S_ .f32 0x7F800000#32
  let main_v24 : FVec F S128x128 .f32 := broadcastInDim S128x128 ![] bcast_S_S128x128 main_cst_8
  let main_v25 : IVec S128x128 1 := cmpf .olt main_v23 main_v24
  let main_c_9 : IVec S_ 1 := constantI S_ 1 1#1
  let main_v26 : IVec S_ 1 := (fun x v => Host.reduce IntOp.andi x v reducesTo_S128x128_S_d0_1 h_S_) main_v25 main_c_9
  let main_v27 : IVec S_ 1 := andi main_v22 main_v26
  let main_v28 : FVec F S128 .f32 := Host.absf main_arg10
  let main_cst_10 : FVec F S_ .f32 := constant S_ .f32 0x7F800000#32
  let main_v29 : FVec F S128 .f32 := broadcastInDim S128 ![] bcast_S_S128 main_cst_10
  let main_v30 : IVec S128 1 := cmpf .olt main_v28 main_v29
  let main_c_11 : IVec S_ 1 := constantI S_ 1 1#1
  let main_v31 : IVec S_ 1 := (fun x v => Host.reduce IntOp.andi x v reducesTo_S128_S_d0 h_S_) main_v30 main_c_11
  let main_v32 : IVec S_ 1 := andi main_v27 main_v31
  let main_c_12 : IVec S_ 32 := constantI S_ 32 0#32
  fn_part2 (F := F) main_arg0 main_arg1 main_v32 main_c_12

def fn {F : FTy → Type} [FloatOps F] (main_arg0 : IVec S500000 32) (main_arg1 : IVec S1000000x3 32) (main_arg2 : IVec S500000 32) (main_arg3 : IVec S100000 1) (main_arg4 : FVec F S128x128 .f32) (main_arg5 : FVec F S5x128 .f32) (main_arg6 : FVec F S_ .f32) (main_arg7 : FVec F S128x128 .f32) (main_arg8 : FVec F S128 .f32) (main_arg9 : FVec F S128x128 .f32) (main_arg10 : FVec F S128 .f32) : IVec S_ 1 :=
  let main_v0 : FVec F S128x128 .f32 := Host.absf main_arg4
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S5x128 .f32 := Host.absf main_arg5
  let main_cst_0 : FVec F S_ .f32 := constant S_ .f32 0x7F800000#32
  let main_v5 : FVec F S5x128 .f32 := broadcastInDim S5x128 ![] bcast_S_S5x128 main_cst_0
  let main_v6 : IVec S5x128 1 := cmpf .olt main_v4 main_v5
  let main_c_1 : IVec S_ 1 := constantI S_ 1 1#1
  let main_v7 : IVec S_ 1 := (fun x v => Host.reduce IntOp.andi x v reducesTo_S5x128_S_d0_1 h_S_) main_v6 main_c_1
  let main_v8 : IVec S_ 1 := andi main_v3 main_v7
  let main_v9 : FVec F S_ .f32 := Host.absf main_arg6
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S128x128 .f32 := Host.absf main_arg7
  let main_cst_4 : FVec F S_ .f32 := constant S_ .f32 0x7F800000#32
  let main_v14 : FVec F S128x128 .f32 := broadcastInDim S128x128 ![] bcast_S_S128x128 main_cst_4
  let main_v15 : IVec S128x128 1 := cmpf .olt main_v13 main_v14
  let main_c_5 : IVec S_ 1 := constantI S_ 1 1#1
  fn_part1 (F := F) main_arg0 main_arg1 main_arg8 main_arg9 main_arg10 main_v12 main_v15 main_c_5
-- ==== Kernel.lean ====
abbrev S500000 : Shape := ⟨1, ![500000]⟩
abbrev S1000000x3 : Shape := ⟨2, ![1000000, 3]⟩
abbrev S100000 : Shape := ⟨1, ![100000]⟩
abbrev S128x128 : Shape := ⟨2, ![128, 128]⟩
abbrev S5x128 : Shape := ⟨2, ![5, 128]⟩
abbrev S_ : Shape := ⟨0, ![]⟩
abbrev S128 : Shape := ⟨1, ![128]⟩
abbrev S1000000x1 : Shape := ⟨2, ![1000000, 1]⟩
abbrev S1000000 : Shape := ⟨1, ![1000000]⟩
abbrev S500000x1 : Shape := ⟨2, ![500000, 1]⟩
abbrev S500000x128 : Shape := ⟨2, ![500000, 128]⟩
abbrev S5000x1 : Shape := ⟨2, ![5000, 1]⟩
abbrev S5000x128 : Shape := ⟨2, ![5000, 128]⟩
abbrev S1000000x128 : Shape := ⟨2, ![1000000, 128]⟩
abbrev S1 : Shape := ⟨1, ![1]⟩
abbrev S1x128 : Shape := ⟨2, ![1, 128]⟩
abbrev S100000x128 : Shape := ⟨2, ![100000, 128]⟩
abbrev S100000x1 : Shape := ⟨2, ![100000, 1]⟩

abbrev nBuf : Space → Nat
  | .hbm => 98
  | .vmem => 22
  | .smem => 0
  | _ => 0

abbrev bufTy : (tb : Table) → Fin (tcTables nBuf tb) → BufTy
  | .hbm, ⟨0, _⟩ => ⟨S500000, .i32⟩
  | .hbm, ⟨1, _⟩ => ⟨S1000000x3, .i32⟩
  | .hbm, ⟨2, _⟩ => ⟨S500000, .i32⟩
  | .hbm, ⟨3, _⟩ => ⟨S100000, .i1⟩
  | .hbm, ⟨4, _⟩ => ⟨S128x128, .f32⟩
  | .hbm, ⟨5, _⟩ => ⟨S5x128, .f32⟩
  | .hbm, ⟨6, _⟩ => ⟨S_, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1000000x1, .i32⟩
  | .hbm, ⟨12, _⟩ => ⟨S1000000, .i32⟩
  | .hbm, ⟨13, _⟩ => ⟨S1000000x1, .i32⟩
  | .hbm, ⟨14, _⟩ => ⟨S1000000, .i32⟩
  | .hbm, ⟨15, _⟩ => ⟨S1000000x1, .i32⟩
  | .hbm, ⟨16, _⟩ => ⟨S1000000, .i32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000, .i1⟩
  | .hbm, ⟨26, _⟩ => ⟨S500000, .i1⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S1000000, .i32⟩
  | .hbm, ⟨43, _⟩ => ⟨S1000000x1, .i32⟩
  | .hbm, ⟨44, _⟩ => ⟨S1000000, .i1⟩
  | .hbm, ⟨45, _⟩ => ⟨S1000000, .i1⟩
  | .hbm, ⟨46, _⟩ => ⟨S1000000, .f32⟩
  | .hbm, ⟨47, _⟩ => ⟨S1000000x1, .f32⟩
  | .hbm, ⟨48, _⟩ => ⟨S500000x1, .i32⟩
  | .hbm, ⟨49, _⟩ => ⟨S500000x128, .f32⟩
  | .hbm, ⟨50, _⟩ => ⟨S_, .i32⟩
  | .hbm, ⟨51, _⟩ => ⟨S1000000, .i32⟩
  | .hbm, ⟨52, _⟩ => ⟨S1000000, .i1⟩
  | .hbm, ⟨53, _⟩ => ⟨S_, .i32⟩
  | .hbm, ⟨54, _⟩ => ⟨S1000000, .i32⟩
  | .hbm, ⟨55, _⟩ => ⟨S1000000, .i32⟩
  | .hbm, ⟨56, _⟩ => ⟨S1000000, .i32⟩
  | .hbm, ⟨57, _⟩ => ⟨S1000000x1, .i32⟩
  | .hbm, ⟨58, _⟩ => ⟨S1000000x128, .f32⟩
  | .hbm, ⟨59, _⟩ => ⟨S_, .f32⟩
  | .hbm, ⟨60, _⟩ => ⟨S128x128, .f32⟩
  | .hbm, ⟨61, _⟩ => ⟨S_, .i32⟩
  | .hbm, ⟨62, _⟩ => ⟨S1, .i32⟩
  | .hbm, ⟨63, _⟩ => ⟨S128x128, .f32⟩
  | .hbm, ⟨64, _⟩ => ⟨S1000000x1, .i32⟩
  | .hbm, ⟨65, _⟩ => ⟨S1000000x128, .f32⟩
  | .hbm, ⟨66, _⟩ => ⟨S_, .f32⟩
  | .hbm, ⟨67, _⟩ => ⟨S500000x128, .f32⟩
  | .hbm, ⟨68, _⟩ => ⟨S1000000x1, .i32⟩
  | .hbm, ⟨69, _⟩ => ⟨S500000x128, .f32⟩
  | .hbm, ⟨70, _⟩ => ⟨S_, .f32⟩
  | .hbm, ⟨71, _⟩ => ⟨S_, .f32⟩
  | .hbm, ⟨72, _⟩ => ⟨S500000x128, .f32⟩
  | .hbm, ⟨73, _⟩ => ⟨S500000x128, .f32⟩
  | .hbm, ⟨74, _⟩ => ⟨S500000x128, .f32⟩
  | .hbm, ⟨75, _⟩ => ⟨S500000x128, .f32⟩
  | .hbm, ⟨76, _⟩ => ⟨S_, .f32⟩
  | .hbm, ⟨77, _⟩ => ⟨S100000x128, .f32⟩
  | .hbm, ⟨78, _⟩ => ⟨S500000x1, .i32⟩
  | .hbm, ⟨79, _⟩ => ⟨S100000x128, .f32⟩
  | .hbm, ⟨80, _⟩ => ⟨S_, .f32⟩
  | .hbm, ⟨81, _⟩ => ⟨S500000, .f32⟩
  | .hbm, ⟨82, _⟩ => ⟨S_, .f32⟩
  | .hbm, ⟨83, _⟩ => ⟨S100000, .f32⟩
  | .hbm, ⟨84, _⟩ => ⟨S500000x1, .i32⟩
  | .hbm, ⟨85, _⟩ => ⟨S100000, .f32⟩
  | .hbm, ⟨86, _⟩ => ⟨S_, .f32⟩
  | .hbm, ⟨87, _⟩ => ⟨S100000, .f32⟩
  | .hbm, ⟨88, _⟩ => ⟨S100000, .f32⟩
  | .hbm, ⟨89, _⟩ => ⟨S100000, .f32⟩
  | .hbm, ⟨90, _⟩ => ⟨S100000x1, .f32⟩
  | .hbm, ⟨91, _⟩ => ⟨S100000x128, .f32⟩
  | .hbm, ⟨92, _⟩ => ⟨S100000x128, .f32⟩
  | .hbm, ⟨93, _⟩ => ⟨S100000x1, .i1⟩
  | .hbm, ⟨94, _⟩ => ⟨S_, .f32⟩
  | .hbm, ⟨95, _⟩ => ⟨S100000x128, .f32⟩
  | .hbm, ⟨96, _⟩ => ⟨S100000x128, .i1⟩
  | .hbm, ⟨97, _⟩ => ⟨S100000x128, .f32⟩
  | .local _ .vmem, ⟨0, _⟩ => ⟨S5000x1, .i32⟩
  | .local _ .vmem, ⟨1, _⟩ => ⟨S5000x1, .i32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x1, .i32⟩
  | .local _ .vmem, ⟨8, _⟩ => ⟨S5000x1, .i32⟩
  | .local _ .vmem, ⟨9, _⟩ => ⟨S128x128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S128, .f32⟩
  | .local _ .vmem, ⟨18, _⟩ => ⟨S128x128, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | _, _ => ⟨S500000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst : Ref sig .tc := ⟨.hbm, 59, rfl⟩
abbrev main_v40 : Ref sig .tc := ⟨.hbm, 60, rfl⟩
abbrev main_c_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_14 : Ref sig .tc := ⟨.hbm, 94, rfl⟩
abbrev main_v67 : Ref sig .tc := ⟨.hbm, 95, rfl⟩
abbrev main_call0_v0 : Ref sig .tc := ⟨.hbm, 96, rfl⟩
abbrev main_v68 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S1000000x3_S1000000x1_0_0 : S1000000x3.Slices ![0, 0] S1000000x1
  shapeCasts_S1000000x1_S1000000 : S1000000x1.ShapeCasts S1000000
  slices_S1000000x3_S1000000x1_0_1 : S1000000x3.Slices ![0, 1] S1000000x1
  slices_S1000000x3_S1000000x1_0_2 : S1000000x3.Slices ![0, 2] S1000000x1
  bcast_S_S500000 : S_.BroadcastsInDim S500000 (![] : Fin 0 → Fin S500000.rank)
  bcast_S500000_S500000x1_0 : S500000.BroadcastsInDim S500000x1 (![0] : Fin 1 → Fin S500000x1.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S_S128x128 : S_.BroadcastsInDim S128x128 (![] : Fin 0 → Fin S128x128.rank)
  bcast_S_S1 : S_.BroadcastsInDim S1 (![] : Fin 0 → Fin S1.rank)
  shapeCasts_S128x128_S128x128 : S128x128.ShapeCasts S128x128
  shapeCasts_S5000x128_S5000x128 : S5000x128.ShapeCasts S5000x128
  bcast_S_S500000x128 : S_.BroadcastsInDim S500000x128 (![] : Fin 0 → Fin S500000x128.rank)
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  gather_S100000_S500000x1_S500000_n_0_n_n_0_1_1_wf : GatherDims.WF S100000 S500000x1 S500000 [] [0] [] [0] [] 1 ![1]
  gather_S500000_S1000000x1_S1000000_n_0_n_n_0_1_1_wf : GatherDims.WF S500000 S1000000x1 S1000000 [] [0] [] [0] [] 1 ![1]
  dot_S5000x128_S128x128_S5000x128_1_0_0_1_n_n_wf : DotDims.WF S5000x128 S128x128 S5000x128 [1] [0] [0] [1] [] []
  gather_S500000x128_S1000000x1_S1000000x128_1_0_n_n_0_1_1128_wf : GatherDims.WF S500000x128 S1000000x1 S1000000x128 [1] [0] [] [0] [] 1 ![1, 128]
  scatter_S128x128_S1_S5x128_01_n_0_0_wf : ScatterDims.WF S128x128 S1 S5x128 [0, 1] [] [0] 0
  scatter_S500000x128_S1000000x1_S1000000x128_1_0_0_1_wf : ScatterDims.WF S500000x128 S1000000x1 S1000000x128 [1] [0] [0] 1
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S500000x1.size a
  hwx0_0 : ∀ i : grid0.Coords, EltTy.bits .i32 = 32 ∨ (Rect.block (s := S500000x1) S5000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S500000x128.size a
  hwx0_2 : ∀ i : grid0.Coords, EltTy.bits .f32 = 32 ∨ (Rect.block (s := S500000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S1000000x128.size a
  hwx1_0 : ∀ i : grid1.Coords, EltTy.bits .f32 = 32 ∨ (Rect.block (s := S1000000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S1000000x1.size a
  hwx1_1 : ∀ i : grid1.Coords, EltTy.bits .i32 = 32 ∨ (Rect.block (s := S1000000x1) S5000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S1000000x1.size a
  hwx1_3 : ∀ i : grid1.Coords, EltTy.bits .f32 = 32 ∨ (Rect.block (s := S1000000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S1000000x128.size a
  hwx1_4 : ∀ i : grid1.Coords, EltTy.bits .f32 = 32 ∨ (Rect.block (s := S1000000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S500000x128.size a
  hwx2_0 : ∀ i : grid2.Coords, EltTy.bits .f32 = 32 ∨ (Rect.block (s := S500000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S500000x128.size a
  hwx2_5 : ∀ i : grid2.Coords, EltTy.bits .f32 = 32 ∨ (Rect.block (s := S500000x128) S5000x128.size (cc2_transform_5 i) (hinb2_5 i)).WholeWords (EltTy.packing .f32)

variable [Facts₀]

def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def gather_S500000_S1000000x1_S1000000_n_0_n_n_0_1_1 : GatherDims S500000 S1000000x1 S1000000 where
  offsetDims := []
  collapsedSliceDims := [0]
  operandBatchingDims := []
  startIndicesBatchingDims := []
  startIndexMap := [0]
  indexVectorDim := 1
  sliceSizes := ![1]
  wf := gather_S500000_S1000000x1_S1000000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S500000x128_S1000000x1_S1000000x128_1_0_n_n_0_1_1128 : GatherDims S500000x128 S1000000x1 S1000000x128 where
  offsetDims := [1]
  collapsedSliceDims := [0]
  operandBatchingDims := []
  startIndicesBatchingDims := []
  startIndexMap := [0]
  indexVectorDim := 1
  sliceSizes := ![1, 128]
  wf := gather_S500000x128_S1000000x1_S1000000x128_1_0_n_n_0_1_1128_wf
def scatter_S128x128_S1_S5x128_01_n_0_0 : ScatterDims S128x128 S1 S5x128 where
  updateWindowDims := [0, 1]
  insertedWindowDims := []
  scatterDimsToOperandDims := [0]
  indexVectorDim := 0
  wf := scatter_S128x128_S1_S5x128_01_n_0_0_wf
def scatter_S500000x128_S1000000x1_S1000000x128_1_0_0_1 : ScatterDims S500000x128 S1000000x1 S1000000x128 where
  updateWindowDims := [1]
  insertedWindowDims := [0]
  scatterDimsToOperandDims := [0]
  indexVectorDim := 1
  wf := scatter_S500000x128_S1000000x1_S1000000x128_1_0_0_1_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf

abbrev win0_0 : Pipeline.Window sig grid0 :=
  Pipeline.Window.ofSpec (Memref.whole main_v31) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S500000 : Shape := ⟨1, ![500000]⟩
abbrev S1000000x3 : Shape := ⟨2, ![1000000, 3]⟩
abbrev S100000 : Shape := ⟨1, ![100000]⟩
abbrev S128x128 : Shape := ⟨2, ![128, 128]⟩
abbrev S5x128 : Shape := ⟨2, ![5, 128]⟩
abbrev S_ : Shape := ⟨0, ![]⟩
abbrev S128 : Shape := ⟨1, ![128]⟩
abbrev S500000x1 : Shape := ⟨2, ![500000, 1]⟩
abbrev S1000000x1 : Shape := ⟨2, ![1000000, 1]⟩
abbrev S1000000 : Shape := ⟨1, ![1000000]⟩
abbrev S500000x128 : Shape := ⟨2, ![500000, 128]⟩
abbrev S1000000x128 : Shape := ⟨2, ![1000000, 128]⟩
abbrev S1x128 : Shape := ⟨2, ![1, 128]⟩
abbrev S100000x128 : Shape := ⟨2, ![100000, 128]⟩
abbrev S100000x1 : Shape := ⟨2, ![100000, 1]⟩

abbrev nBuf : Space → Nat
  | .hbm => 123
  | .vmem => 0
  | .smem => 0
  | _ => 0

abbrev bufTy : (tb : Table) → Fin (tcTables nBuf tb) → BufTy
  | .hbm, ⟨0, _⟩ => ⟨S500000, .i32⟩
  | .hbm, ⟨1, _⟩ => ⟨S1000000x3, .i32⟩
  | .hbm, ⟨2, _⟩ => ⟨S500000, .i32⟩
  | .hbm, ⟨3, _⟩ => ⟨S100000, .i1⟩
  | .hbm, ⟨4, _⟩ => ⟨S128x128, .f32⟩
  | .hbm, ⟨5, _⟩ => ⟨S5x128, .f32⟩
  | .hbm, ⟨6, _⟩ => ⟨S_, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000, .i1⟩
  | .hbm, ⟨20, _⟩ => ⟨S500000, .i1⟩
  | .hbm, ⟨21, _⟩ => ⟨S1000000x1, .i32⟩
  | .hbm, ⟨22, _⟩ => ⟨S1000000, .i32⟩
  | .hbm, ⟨23, _⟩ => ⟨S1000000x1, .i32⟩
  | .hbm, ⟨24, _⟩ => ⟨S1000000, .i32⟩
  | .hbm, ⟨25, _⟩ => ⟨S1000000x1, .i32⟩
  | .hbm, ⟨26, _⟩ => ⟨S1000000, .i32⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S1000000, .i32⟩
  | .hbm, ⟨43, _⟩ => ⟨S1000000x1, .i32⟩
  | .hbm, ⟨44, _⟩ => ⟨S1000000, .i1⟩
  | .hbm, ⟨45, _⟩ => ⟨S1000000, .i1⟩
  | .hbm, ⟨46, _⟩ => ⟨S1000000, .f32⟩
  | .hbm, ⟨47, _⟩ => ⟨S1000000x1, .f32⟩
  | .hbm, ⟨48, _⟩ => ⟨S_, .i32⟩
  | .hbm, ⟨49, _⟩ => ⟨S500000, .i32⟩
  | .hbm, ⟨50, _⟩ => ⟨S500000, .i1⟩
  | .hbm, ⟨51, _⟩ => ⟨S_, .i32⟩
  | .hbm, ⟨52, _⟩ => ⟨S500000, .i32⟩
  | .hbm, ⟨53, _⟩ => ⟨S500000, .i32⟩
  | .hbm, ⟨54, _⟩ => ⟨S500000, .i32⟩
  | .hbm, ⟨55, _⟩ => ⟨S500000x1, .i32⟩
  | .hbm, ⟨56, _⟩ => ⟨S500000x128, .f32⟩
  | .hbm, ⟨57, _⟩ => ⟨S_, .i32⟩
  | .hbm, ⟨58, _⟩ => ⟨S1000000, .i32⟩
  | .hbm, ⟨59, _⟩ => ⟨S1000000, .i1⟩
  | .hbm, ⟨60, _⟩ => ⟨S_, .i32⟩
  | .hbm, ⟨61, _⟩ => ⟨S1000000, .i32⟩
  | .hbm, ⟨62, _⟩ => ⟨S1000000, .i32⟩
  | .hbm, ⟨63, _⟩ => ⟨S1000000, .i32⟩
  | .hbm, ⟨64, _⟩ => ⟨S1000000x1, .i32⟩
  | .hbm, ⟨65, _⟩ => ⟨S1000000x128, .f32⟩
  | .hbm, ⟨66, _⟩ => ⟨S_, .i32⟩
  | .hbm, ⟨67, _⟩ => ⟨S1000000, .i32⟩
  | .hbm, ⟨68, _⟩ => ⟨S1000000, .i1⟩
  | .hbm, ⟨69, _⟩ => ⟨S_, .i32⟩
  | .hbm, ⟨70, _⟩ => ⟨S1000000, .i32⟩
  | .hbm, ⟨71, _⟩ => ⟨S1000000, .i32⟩
  | .hbm, ⟨72, _⟩ => ⟨S1000000, .i32⟩
  | .hbm, ⟨73, _⟩ => ⟨S1000000x1, .i32⟩
  | .hbm, ⟨74, _⟩ => ⟨S1000000x128, .f32⟩
  | .hbm, ⟨75, _⟩ => ⟨S1000000x128, .f32⟩
  | .hbm, ⟨76, _⟩ => ⟨S_, .f32⟩
  | .hbm, ⟨77, _⟩ => ⟨S1000000x128, .f32⟩
  | .hbm, ⟨78, _⟩ => ⟨S1000000x128, .f32⟩
  | .hbm, ⟨79, _⟩ => ⟨S1000000x128, .f32⟩
  | .hbm, ⟨80, _⟩ => ⟨S1000000x128, .f32⟩
  | .hbm, ⟨81, _⟩ => ⟨S_, .f32⟩
  | .hbm, ⟨82, _⟩ => ⟨S500000x128, .f32⟩
  | .hbm, ⟨83, _⟩ => ⟨S1000000x1, .i32⟩
  | .hbm, ⟨84, _⟩ => ⟨S500000x128, .f32⟩
  | .hbm, ⟨85, _⟩ => ⟨S_, .f32⟩
  | .hbm, ⟨86, _⟩ => ⟨S_, .f32⟩
  | .hbm, ⟨87, _⟩ => ⟨S500000x128, .f32⟩
  | .hbm, ⟨88, _⟩ => ⟨S500000x128, .f32⟩
  | .hbm, ⟨89, _⟩ => ⟨S500000x128, .f32⟩
  | .hbm, ⟨90, _⟩ => ⟨S500000x128, .f32⟩
  | .hbm, ⟨91, _⟩ => ⟨S1x128, .f32⟩
  | .hbm, ⟨92, _⟩ => ⟨S500000x128, .f32⟩
  | .hbm, ⟨93, _⟩ => ⟨S500000x128, .f32⟩
  | .hbm, ⟨94, _⟩ => ⟨S_, .f32⟩
  | .hbm, ⟨95, _⟩ => ⟨S500000x128, .f32⟩
  | .hbm, ⟨96, _⟩ => ⟨S500000x128, .f32⟩
  | .hbm, ⟨97, _⟩ => ⟨S500000x128, .f32⟩
  | .hbm, ⟨98, _⟩ => ⟨S1x128, .f32⟩
  | .hbm, ⟨99, _⟩ => ⟨S500000x128, .f32⟩
  | .hbm, ⟨100, _⟩ => ⟨S500000x128, .f32⟩
  | .hbm, ⟨101, _⟩ => ⟨S_, .f32⟩
  | .hbm, ⟨102, _⟩ => ⟨S100000x128, .f32⟩
  | .hbm, ⟨103, _⟩ => ⟨S500000x1, .i32⟩
  | .hbm, ⟨104, _⟩ => ⟨S100000x128, .f32⟩
  | .hbm, ⟨105, _⟩ => ⟨S_, .f32⟩
  | .hbm, ⟨106, _⟩ => ⟨S500000, .f32⟩
  | .hbm, ⟨107, _⟩ => ⟨S_, .f32⟩
  | .hbm, ⟨108, _⟩ => ⟨S100000, .f32⟩
  | .hbm, ⟨109, _⟩ => ⟨S500000x1, .i32⟩
  | .hbm, ⟨110, _⟩ => ⟨S100000, .f32⟩
  | .hbm, ⟨111, _⟩ => ⟨S_, .f32⟩
  | .hbm, ⟨112, _⟩ => ⟨S100000, .f32⟩
  | .hbm, ⟨113, _⟩ => ⟨S100000, .f32⟩
  | .hbm, ⟨114, _⟩ => ⟨S100000, .f32⟩
  | .hbm, ⟨115, _⟩ => ⟨S100000x1, .f32⟩
  | .hbm, ⟨116, _⟩ => ⟨S100000x128, .f32⟩
  | .hbm, ⟨117, _⟩ => ⟨S100000x128, .f32⟩
  | .hbm, ⟨118, _⟩ => ⟨S100000x1, .i1⟩
  | .hbm, ⟨119, _⟩ => ⟨S_, .f32⟩
  | .hbm, ⟨120, _⟩ => ⟨S100000x128, .f32⟩
  | .hbm, ⟨121, _⟩ => ⟨S100000x128, .i1⟩
  | .hbm, ⟨122, _⟩ => ⟨S100000x128, .f32⟩
  | _, _ => ⟨S500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_9 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call0_cst : Ref sig .tc := ⟨.hbm, 76, rfl⟩
abbrev main_call0_v0 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call1_cst : Ref sig .tc := ⟨.hbm, 94, rfl⟩
abbrev main_call1_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_12 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_13 : Ref sig .tc := ⟨.hbm, 105, rfl⟩
abbrev main_v75 : Ref sig .tc := ⟨.hbm, 106, rfl⟩
abbrev main_cst_14 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_15 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_16 : Ref sig .tc := ⟨.hbm, 119, rfl⟩
abbrev main_v86 : Ref sig .tc := ⟨.hbm, 120, rfl⟩
abbrev main_call2_v0 : Ref sig .tc := ⟨.hbm, 121, rfl⟩
abbrev main_v87 : Ref sig .tc := ⟨.hbm, 122, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  slices_S1000000x3_S1000000x1_0_0 : S1000000x3.Slices ![0, 0] S1000000x1
  shapeCasts_S1000000x1_S1000000 : S1000000x1.ShapeCasts S1000000
  slices_S1000000x3_S1000000x1_0_1 : S1000000x3.Slices ![0, 1] S1000000x1
  slices_S1000000x3_S1000000x1_0_2 : S1000000x3.Slices ![0, 2] S1000000x1
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x128 : S_.BroadcastsInDim S1000000x128 (![] : Fin 0 → Fin S1000000x128.rank)
  bcast_S1000000x1_S1000000x128_0_1 : S1000000x1.BroadcastsInDim S1000000x128 (![0, 1] : Fin 2 → Fin S1000000x128.rank)
  bcast_S_S500000x128 : S_.BroadcastsInDim S500000x128 (![] : Fin 0 → Fin S500000x128.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  gather_S100000_S500000x1_S500000_n_0_n_n_0_1_1_wf : GatherDims.WF S100000 S500000x1 S500000 [] [0] [] [0] [] 1 ![1]
  gather_S500000_S1000000x1_S1000000_n_0_n_n_0_1_1_wf : GatherDims.WF S500000 S1000000x1 S1000000 [] [0] [] [0] [] 1 ![1]
  gather_S128x128_S500000x1_S500000x128_1_0_n_n_0_1_1128_wf : GatherDims.WF S128x128 S500000x1 S500000x128 [1] [0] [] [0] [] 1 ![1, 128]
  gather_S5x128_S1000000x1_S1000000x128_1_0_n_n_0_1_1128_wf : GatherDims.WF S5x128 S1000000x1 S1000000x128 [1] [0] [] [0] [] 1 ![1, 128]
  gather_S500000x128_S1000000x1_S1000000x128_1_0_n_n_0_1_1128_wf : GatherDims.WF S500000x128 S1000000x1 S1000000x128 [1] [0] [] [0] [] 1 ![1, 128]
  scatter_S500000x128_S1000000x1_S1000000x128_1_0_0_1_wf : ScatterDims.WF S500000x128 S1000000x1 S1000000x128 [1] [0] [0] 1
  dot_S500000x128_S128x128_S500000x128_1_0_0_1_n_n_wf : DotDims.WF S500000x128 S128x128 S500000x128 [1] [0] [0] [1] [] []
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1

variable [Facts₀]

def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def gather_S500000_S1000000x1_S1000000_n_0_n_n_0_1_1 : GatherDims S500000 S1000000x1 S1000000 where
  offsetDims := []
  collapsedSliceDims := [0]
  operandBatchingDims := []
  startIndicesBatchingDims := []
  startIndexMap := [0]
  indexVectorDim := 1
  sliceSizes := ![1]
  wf := gather_S500000_S1000000x1_S1000000_n_0_n_n_0_1_1_wf
def gather_S128x128_S500000x1_S500000x128_1_0_n_n_0_1_1128 : GatherDims S128x128 S500000x1 S500000x128 where
  offsetDims := [1]
  collapsedSliceDims := [0]
  operandBatchingDims := []
  startIndicesBatchingDims := []
  startIndexMap := [0]
  indexVectorDim := 1
  sliceSizes := ![1, 128]
  wf := gather_S128x128_S500000x1_S500000x128_1_0_n_n_0_1_1128_wf
def gather_S5x128_S1000000x1_S1000000x128_1_0_n_n_0_1_1128 : GatherDims S5x128 S1000000x1 S1000000x128 where
  offsetDims := [1]
  collapsedSliceDims := [0]
  operandBatchingDims := []
  startIndicesBatchingDims := []
  startIndexMap := [0]
  indexVectorDim := 1
  sliceSizes := ![1, 128]
  wf := gather_S5x128_S1000000x1_S1000000x128_1_0_n_n_0_1_1128_wf
def gather_S500000x128_S1000000x1_S1000000x128_1_0_n_n_0_1_1128 : GatherDims S500000x128 S1000000x1 S1000000x128 where
  offsetDims := [1]
  collapsedSliceDims := [0]
  operandBatchingDims := []
  startIndicesBatchingDims := []
  startIndexMap := [0]
  indexVectorDim := 1
  sliceSizes := ![1, 128]
  wf := gather_S500000x128_S1000000x1_S1000000x128_1_0_n_n_0_1_1128_wf
def scatter_S500000x128_S1000000x1_S1000000x128_1_0_0_1 : ScatterDims S500000x128 S1000000x1 S1000000x128 where
  updateWindowDims := [1]
  insertedWindowDims := [0]
  scatterDimsToOperandDims := [0]
  indexVectorDim := 1
  wf := scatter_S500000x128_S1000000x1_S1000000x128_1_0_0_1_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf

class Facts : Prop extends Facts₀ where

variable [Facts]
-- ==== Proof.Spec.lean ====
/-
  The three dense stages of one message-passing layer, each as ONE function of whole arrays, entry by entry, on the
  extended reals.

  * `embed`: row n of the result is the table row that the word in row n of an index column names, written as the sum
    over all 128 table rows of a 0/1 weight times the row: the weight is 1 exactly when the word IS that row's number.
    A word that names no row gives the zero row.
  * `message`: entry (e, d) is max(hs(e, d) + (the embedded bond row of e)(d), 0) scaled by the keep flag of edge e.
  * `mlp`: entry (n, d) is the two-layer perceptron of row n: sum over k of max((sum over i of hp(n, i) W1(i, k)) + b1(k), 0)
    times W2(k, d), plus b2(d).

  All three are local to a row: row n of the result reads row n of the row-indexed operands and the small tables only.
  That is what lets a result computed block of rows by block of rows be read as one function of the whole arrays.
-/
import Idealize.ShloMosaic.PureOps.Ideal
import Idealize.ShloMosaic.Lib.ValueIdx

noncomputable section

open scoped BigOperators

namespace Cert.Spec

open Idealize.ShloMosaic Idealize.ShloMosaic.ValueIdx

/-- The shape of an array of n rows and c columns. -/
abbrev Rows (n c : Nat) : Shape := ⟨2, ![n, c]⟩

/-- The shape of a vector of n entries. -/
abbrev Vect (n : Nat) : Shape := ⟨1, ![n]⟩

/-- The row coordinate of an index, as a number below the row count. -/
abbrev rowOf {n c : Nat} (j : (Rows n c).Idx) : Fin n := ⟨(j 0).val, (j 0).isLt⟩

/-- The column coordinate of an index, as a number below the column count. -/
abbrev colOf {n c : Nat} (j : (Rows n c).Idx) : Fin c := ⟨(j 1).val, (j 1).isLt⟩

/-- The 0/1 weight of table row v under the word w: 1 exactly when w is the 32-bit word of v. -/
def hot (w : BitVec 32) (v : Fin 128) : EReal := if w = BitVec.ofNat 32 v.val then 1 else 0

/-- The embedded row of a word: the weighted sum of the table's rows, read at column q. -/
def pick (w : BitVec 32) (tbl : (Rows 128 128).Idx → EReal) (q : Fin 128) : EReal :=
  ∑ v : Fin 128, hot w v * tbl (ix2 v q)

/-- Row n of the result is the embedded row of the word in row n of the index column. -/
def embed {n : Nat} (idx : (Rows n 1).Idx → BitVec 32) (tbl : (Rows 128 128).Idx → EReal) : (Rows n 128).Idx → EReal :=
  fun j => pick (idx (ix2 (rowOf j) 0)) tbl (colOf j)

/-- Entry (e, d): the source row plus the embedded bond row, cut off below at zero, scaled by the edge's keep flag. -/
def message {n : Nat} (hs : (Rows n 128).Idx → EReal) (bt : (Rows n 1).Idx → BitVec 32) (tbl : (Rows 128 128).Idx → EReal)
    (keep : (Rows n 1).Idx → EReal) : (Rows n 128).Idx → EReal :=
  fun j => max (hs j + pick (bt (ix2 (rowOf j) 0)) tbl (colOf j)) 0 * keep (ix2 (rowOf j) 0)

/-- The hidden unit k of row r: the row times column k of the first weight matrix, plus the bias, cut off below at zero. -/
def hidden {n : Nat} (hp : (Rows n 128).Idx → EReal) (W1 : (Rows 128 128).Idx → EReal) (b1 : (Vect 128).Idx → EReal)
    (r : Fin n) (k : Fin 128) : EReal :=
  max ((∑ i : Fin 128, hp (ix2 r i) * W1 (ix2 i k)) + b1 (ix1 k)) 0

/-- Entry (n, d) of the two-layer perceptron of row n. -/
def mlp {n : Nat} (hp : (Rows n 128).Idx → EReal) (W1 : (Rows 128 128).Idx → EReal) (b1 : (Vect 128).Idx → EReal)
    (W2 : (Rows 128 128).Idx → EReal) (b2 : (Vect 128).Idx → EReal) : (Rows n 128).Idx → EReal :=
  fun j => (∑ k : Fin 128, hidden hp W1 b1 (rowOf j) k * W2 (ix2 k (colOf j))) + b2 (ix1 (colOf j))

end Cert.Spec

end
-- ==== Proof.Region0.lean ====
/-
  The first launch, read as one function of whole arrays. Its grid has 100 points; point t holds rows 5000 t … 5000 t + 4999
  of the index column and of the result, and the whole 128 × 128 table. At each point the body writes, for each of its
  5000 rows, the sum over the 128 table rows of (1 if the row's word equals the table row's number, else 0) times that
  table row. Since a result row depends on its own index word and the table only, the blocks are the restrictions of
  `Spec.embed` of the whole index column and the table, and they tile the result array.
-/
import proofs.«402086_j77008763617336_1_alg».proof.Proof.Gen.KernelIdeal.Frame
import proofs.«402086_j77008763617336_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen
open Idealize.ShloMosaic Idealize.ShloMosaic.TcCoe Idealize.ShloMosaic.ValueIdx Idealize.SL.Sem

/-! ## The body's product at one entry -/

/-- The product's operand indices, coordinate by coordinate: the left operand is read at (output row, contraction
    coordinate), the right operand at (contraction coordinate, output column). -/
theorem lhs_embed_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_embed_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_embed_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_embed_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The 0/1 weight as the body computes it: the bit of "the word equals the column number", widened to 32 bits and read
    as a signed integer, is 1 when they are equal and 0 when they are not. -/
theorem weight_eq (w : BitVec 32) (v : Fin 128) :
    (((((IntOp.cmpi .eq w (BitVec.ofNat 32 v.val)).setWidth 32).toInt : ℤ) : ℝ) : EReal) = Spec.hot w v := by
  have e1 : ((BitVec.ofBool true).setWidth 32).toInt = 1 := by decide
  have e0 : ((BitVec.ofBool false).setWidth 32).toInt = 0 := by decide
  unfold Spec.hot IntOp.cmpi
  by_cases h : w = BitVec.ofNat 32 v.val
  · rw [if_pos h]
    have hb : (w == BitVec.ofNat 32 v.val) = true := by rw [h]; exact beq_self_eq_true _
    simp only [hb, e1]
    norm_num
  · rw [if_neg h]
    have hb : (w == BitVec.ofNat 32 v.val) = false := by
      rcases hbb : (w == BitVec.ofNat 32 v.val) with _ | _
      · rfl
      · exact absurd (eq_of_beq hbb) h
    simp only [hb, e0]
    norm_num

/-- The body's product at row p, column q of a block: the weighted sum of the table's rows under the word in row p of the
    block's index column. The left operand at (p, k) is the weight of table row k (the column number against the word of
    row p, the word copied along the row); the right operand is the table; the accumulator is zero. -/
theorem pay_apply (x0 : Vec Ideal S5000x1 .i32) (x1 : Vec Ideal S128x128 .f32) (p : Fin 5000) (q : Fin 128) :
    k0_pay1 (F := Ideal) x0 x1 (ix2 p q) = Spec.pick (x0 (ix2 p 0)) x1 q := by
  unfold k0_pay1 Spec.pick
  simp only [matmul]
  refine (Ideal.matmul_constant_zero_apply dot_S5000x128_S128x128_S5000x128_1_0_0_1_n_n none _ _ (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_embed_0 _ _
    | ⟨1, _⟩ => exact (lhs_embed_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_embed_0 _ _).trans hk
    | ⟨1, _⟩ => exact rhs_embed_1 _ _)
  rw [el, er]
  have hb : broadcastTo S5000x128 (shapeCast S5000x1 x0 shapeCasts_S5000x1_S5000x1) broadcasts_S5000x1_S5000x128 (ix2 p k) = x0 (ix2 p 0) := by
    rw [shapeCast_self]
    exact broadcastTo_apply x0 broadcasts_S5000x1_S5000x128 (ix2 p k) (ix2 p 0) (fun a => by
      match a with
      | ⟨0, _⟩ => rfl
      | ⟨1, _⟩ => rfl)
  have hi : iota .tc S5000x128 32 [1] iota_S5000x128_d1_w32 (ix2 p k) = BitVec.ofNat 32 k.val :=
    iota_single_apply .tc S5000x128 32 1 iota_S5000x128_d1_w32 (ix2 p k)
  show (((((IntOp.cmpi .eq (broadcastTo S5000x128 (shapeCast S5000x1 x0 shapeCasts_S5000x1_S5000x1) broadcasts_S5000x1_S5000x128 (ix2 p k)) (iota .tc S5000x128 32 [1] iota_S5000x128_d1_w32 (ix2 p k))).setWidth 32).toInt : ℤ) : ℝ) : EReal) * x1 (ix2 k q) = _
  rw [hb, hi, weight_eq]

/-! ## From the blocks to the whole array -/

theorem zero_offsets : (![0, 0] : Fin 2 → Nat) = fun _ => 0 := funext fun a => by fin_cases a <;> rfl

/-- The body's product at any index of its block, the index split into its row and its column. -/
theorem pay_at (x0 : Vec Ideal S5000x1 .i32) (x1 : Vec Ideal S128x128 .f32) (j : S5000x128.Idx) :
    k0_pay1 (F := Ideal) x0 x1 j = Spec.pick (x0 (ix2 (Spec.rowOf j) 0)) x1 (Spec.colOf j) := by
  have e : j = ix2 (Spec.rowOf j) (Spec.colOf j) := by
    funext a; match a with | ⟨0, _⟩ => rfl | ⟨1, _⟩ => rfl
  exact (congrArg (k0_pay1 (F := Ideal) x0 x1) e).trans (pay_apply x0 x1 (Spec.rowOf j) (Spec.colOf j))

/-- The block index maps over the grid: at point t the index column's block and the result's block are block t down the
    rows, and the table's block is the one block there is. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

namespace Launch0

/-- The index column's block at point t holds rows 5000 t … 5000 t + 4999 of the index column. -/
theorem index_block_apply (c : Dev nD) (t : Fin cfg0.N) (y : S5000x1.Idx) (i : S500000x1.Idx)
    (h0 : (i 0).val = 5000 * t.val + (y 0).val) (h1 : (i 1).val = (y 1).val) :
    (iblk0 V c 0 t : Vec Ideal S5000x1 .i32) y = (V c main_v31 : S500000x1.Idx → Elt Ideal .i32) i := by
  obtain ⟨e0, e1, -⟩ := block_indices t
  unfold iblk0
  rw [View.read_apply]
  show V c main_v31 (((cfg0.win 0).blk t).view.emb y) = V c main_v31 i
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 1 + 1 * (y 1).val = (i 1).val; rw [e1, h1]; omega

/-- The table's block at every point is the whole table. -/
theorem table_block_eq (c : Dev nD) (t : Fin cfg0.N) :
    (iblk0 V c 1 t : Vec Ideal S128x128 .f32) = (V c main_arg4 : S128x128.Idx → Elt Ideal .f32) := by
  obtain ⟨-, -, e2, e3, -⟩ := block_indices t
  funext y
  unfold iblk0
  rw [View.read_apply]
  show V c main_arg4 (((cfg0.win 1).blk t).view.emb y) = V c main_arg4 y
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- What point t writes back is block t of the embedding of the whole index column by the table. -/
theorem written_eq (c : Dev nD) (t : Fin cfg0.N) :
    (dat0 (F := Ideal) V c).flushed 2 t
      = ((cfg0.win 2).blk t).view.read (Elt Ideal) (Spec.embed (n := 500000) (V c main_v31) (V c main_arg4)) := by
  show (cfg0.win 2).cut (grid0.coords t) ((dat0 V c).after 2 t) = _
  rw [after0_2]
  unfold out0_2
  rw [View.canon_unit_zero zero_offsets]
  simp only [View.ld_unit_zero (S := S5000x1) zero_offsets, View.ld_unit_zero (S := S128x128) zero_offsets]
  funext j
  obtain ⟨-, -, -, -, e4, e5⟩ := block_indices t
  show k0_pay1 (F := Ideal) (iblk0 V c 0 t) (iblk0 V c 1 t) ((cfg0.win 2).xinj (grid0.coords t) j)
      = Spec.embed (n := 500000) (V c main_v31) (V c main_arg4) (((cfg0.win 2).blk t).view.emb j)
  refine (pay_at (iblk0 V c 0 t) (iblk0 V c 1 t) ((cfg0.win 2).xinj (grid0.coords t) j)).trans ?_
  have hj0 : (j 0).val < 5000 := (j 0).isLt
  have hj1 : (j 1).val < 128 := (j 1).isLt
  have hr : ((((cfg0.win 2).blk t).view.emb j) 0).val = 5000 * t.val + (j 0).val := by
    show win0_2.index t (0 : Fin 2) * 5000 + 1 * (j 0).val = _
    rw [e4]; omega
  have hc : ((((cfg0.win 2).blk t).view.emb j) 1).val = (j 1).val := by
    show win0_2.index t (1 : Fin 2) * 128 + 1 * (j 1).val = _
    rw [e5]; omega
  have hw : (iblk0 V c 0 t : Vec Ideal S5000x1 .i32) (ix2 (Spec.rowOf ((cfg0.win 2).xinj (grid0.coords t) j)) 0)
      = (V c main_v31 : S500000x1.Idx → Elt Ideal .i32) (ix2 (Spec.rowOf (((cfg0.win 2).blk t).view.emb j)) 0) :=
    index_block_apply V c t _ _ hr rfl
  have hq : (Spec.colOf ((cfg0.win 2).xinj (grid0.coords t) j) : Fin 128) = Spec.colOf (((cfg0.win 2).blk t).view.emb j) :=
    Fin.ext hc.symm
  show Spec.pick _ _ _ = Spec.pick _ _ _
  rw [hw, table_block_eq V c t, hq]

/-- Every row of the result lies in the block of the point numbered by the row over 5000. -/
theorem rows_covered (i : S500000x128.Idx) :
    ∃ t : Fin cfg0.N, (cfg0.win 2).flush t = true ∧ i ∈ ((cfg0.win 2).blk t).view.set := by
  have hN : cfg0.N = 100 := N_0
  have hi0 : (i 0).val < 500000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, e4, e5⟩ := block_indices t
  refine ⟨t, flush0_2 t, ?_⟩
  show i ∈ ((View.whole main_v32).slice (win0_2.rect t)).set
  rw [View.set_slice_whole, Rect.mem_set_unit]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 128 ≤ (i 1).val ∧ (i 1).val < win0_2.index t (1 : Fin 2) * 128 + 128
    rw [e5]; omega

end Launch0

open Launch0 in
/-- The array the first launch leaves in its output window is the embedding of the whole index column by the table. -/
theorem final0 (c : Dev nD) :
    (dat0 (F := Ideal) V c).arrAt 2 cfg0.N = Spec.embed (n := 500000) (V c main_v31) (V c main_arg4) :=
  (dat0 (F := Ideal) V c).arrAt_eq_of_cover 2 (Spec.embed (n := 500000) (V c main_v31) (V c main_arg4))
    (fun t _ => written_eq V c t) rows_covered

end Cert.KernelIdeal.RegionValue

end
-- ==== Proof.Region1.lean ====
/-
  The second launch, read as one function of whole arrays. Its grid has 200 points; point t holds rows 5000 t … 5000 t + 4999
  of the gathered source rows, the bond-type column, the keep column and the result, and the whole padded bond table.
  At each point the body writes, row by row, max(source row + embedded bond row, 0) times the row's keep flag. A result
  row depends on its own row of each row-indexed operand and the table only, so the blocks are the restrictions of
  `Spec.message` of the whole arrays, and they tile the result array.
-/
import proofs.«402086_j77008763617336_1_alg».proof.Proof.Gen.KernelIdeal.Frame
import proofs.«402086_j77008763617336_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

namespace Launch1

/-! ## Words: the bit of an equality test, read as an extended real -/

/-- The bit of the test "x is y", widened to a word and read as a signed integer, is 1 when the words agree and 0 when
    they do not. -/
theorem bit_real (x y : BitVec 32) :
    (FloatOps.sitofp (F := Ideal) .f32 ((IntOp.cmpi .eq x y).setWidth 32) : EReal) = if x = y then 1 else 0 := by
  by_cases h : x = y
  · subst h
    rw [if_pos rfl]
    have e : IntOp.cmpi .eq x x = 1#1 := by simp [IntOp.cmpi]
    rw [e]
    show ((((1#1 : BitVec 1).setWidth 32).toInt : ℝ) : EReal) = 1
    have e2 : ((1#1 : BitVec 1).setWidth 32).toInt = 1 := by decide
    rw [e2]; simp
  · rw [if_neg h]
    have hb : (x == y) = false := by simpa using h
    have e : IntOp.cmpi .eq x y = 0#1 := by
      show BitVec.ofBool (x == y) = 0#1
      rw [hb]; rfl
    rw [e]
    show ((((0#1 : BitVec 1).setWidth 32).toInt : ℝ) : EReal) = 0
    have e2 : ((0#1 : BitVec 1).setWidth 32).toInt = 0 := by decide
    rw [e2]; simp

/-! ## The product of a 5000-row block with the 128 × 128 table, entry by entry -/

/-- The left factor is read at the result's row … -/
theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the summation index as its column; -/
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right factor at the summation index as its row … -/
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the result's column. -/
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the product accumulated into zero: the sum over k of entry (p, k) of the left factor times entry
    (k, q) of the right. -/
theorem matmul_at (A : FVec Ideal S5000x128 .bf16) (B : FVec Ideal S128x128 .bf16) (p : Fin 5000) (q : Fin 128) :
    matmul dot_S5000x128_S128x128_S5000x128_1_0_0_1_n_n none A B (constant S5000x128 .f32 0x00000000#32) (ix2 p q)
      = ∑ k : Fin 128, A (ix2 p k) * B (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The payload of the message kernel at an entry -/

/-- A column copied across the 128 lanes reads, at (p, k), the column's row p. -/
theorem col_bcast {α : Type} (x : S5000x1.Idx → α) (p : Fin 5000) (k : Fin 128) :
    broadcastTo S5000x128 x broadcasts_S5000x1_S5000x128 (ix2 p k) = x (ix2 p 0) :=
  broadcastTo_apply x _ (ix2 p k) (ix2 p 0) (fun a => by
    match a with
    | ⟨0, _⟩ => rfl
    | ⟨1, _⟩ => rfl)

/-- The one-hot factor the kernel builds from the bond-type column: at (p, k) it is the 0/1 weight of table row k under
    the word in row p. -/
theorem hot_at (v0 : Vec Ideal S5000x1 .i32) (p : Fin 5000) (k : Fin 128) :
    (sitofp (F := Ideal) .f32 (extui 32 (cmpi .eq (broadcastTo S5000x128 v0 broadcasts_S5000x1_S5000x128)
        (iota .tc S5000x128 32 [1] iota_S5000x128_d1_w32)) natLt_1_32) : FVec Ideal S5000x128 .f32) (ix2 p k)
      = Spec.hot (v0 (ix2 p 0)) k := by
  rw [sitofp_apply, extui_apply]
  show FloatOps.sitofp (F := Ideal) .f32 ((IntOp.cmpi .eq (broadcastTo S5000x128 v0 broadcasts_S5000x1_S5000x128 (ix2 p k))
    (iota .tc S5000x128 32 [1] iota_S5000x128_d1_w32 (ix2 p k))).setWidth 32) = _
  rw [col_bcast, iota_single_apply, bit_real]
  rfl

/-- Entry (p, q) of what the body stores: the source row plus the embedded bond row, cut off below at zero, times the
    row's keep flag. -/
theorem pay_apply (v0 : Vec Ideal S5000x1 .i32) (v8 : Vec Ideal S128x128 .f32) (v12 : Vec Ideal S5000x128 .f32)
    (v14 : Vec Ideal S5000x1 .f32) (p : Fin 5000) (q : Fin 128) :
    k1_pay1 (F := Ideal) v0 v8 v12 v14 (ix2 p q)
      = max (v12 (ix2 p q) + Spec.pick (v0 (ix2 p 0)) v8 q) 0 * v14 (ix2 p 0) := by
  unfold k1_pay1
  simp only [shapeCast_self]
  rw [mulf_apply, maximumf_apply, addf_apply, broadcast_apply, matmul_at]
  simp only [truncf_apply, col_bcast]
  rw [show (FloatOps.ofBits (F := Ideal) .f32 0x00000000#32 : EReal) = 0 from Ideal.ofBits_zero_f32]
  refine congrArg (fun s => max (v12 (ix2 p q) + s) 0 * v14 (ix2 p 0)) ?_
  exact Finset.sum_congr rfl fun k _ => congrArg (· * v8 (ix2 k q)) (hot_at v0 p k)

/-! ## The blocks of the second launch -/

/-- Two zero offsets, as the constant function. -/
theorem hz : (![0, 0] : Fin 2 → Nat) = fun _ => 0 := funext fun a => by fin_cases a <;> rfl

/-- The block index maps, decided over the 200 grid points: the four row-indexed windows sit at block row t, column
    block 0; the table's window at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row p of grid point t's block is row 5000 t + p of the array. -/
def row (t : Fin cfg1.N) (p : Fin 5000) : Fin 1000000 :=
  ⟨5000 * t.val + p.val, by have := lt_of_lt_of_eq t.isLt N_1; have := p.isLt; omega⟩

/-- Entry (p, q) of grid point t's block of the source rows is entry (5000 t + p, q) of the array. -/
theorem blk0_apply (c : Dev nD) (t : Fin cfg1.N) (p : Fin 5000) (q : Fin 128) :
    (iblk1 V c 0 t : Vec Ideal S5000x128 .f32) (ix2 p q) = (V c main_v39 : S1000000x128.Idx → EReal) (ix2 (row t p) q) := by
  obtain ⟨e0, e1, -⟩ := idx_facts1 t
  unfold iblk1
  rw [View.read_apply]
  show V c main_v39 (((cfg1.win 0).blk t).view.emb (ix2 p q)) = V c main_v39 (ix2 (row t p) q)
  refine congrArg (V c main_v39) (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 128 + 1 * q.val = q.val; rw [e1]; omega

/-- Row p of grid point t's block of the bond-type column is row 5000 t + p of the column. -/
theorem blk1_apply (c : Dev nD) (t : Fin cfg1.N) (p : Fin 5000) :
    (iblk1 V c 1 t : Vec Ideal S5000x1 .i32) (ix2 p 0) = (V c main_v43 : S1000000x1.Idx → BitVec 32) (ix2 (row t p) 0) := by
  obtain ⟨-, -, e0, e1, -⟩ := idx_facts1 t
  unfold iblk1
  rw [View.read_apply]
  show V c main_v43 (((cfg1.win 1).blk t).view.emb (ix2 p 0)) = V c main_v43 (ix2 (row t p) 0)
  refine congrArg (V c main_v43) (funext fun a => Fin.ext ?_)
  match a with
  | ⟨0, _⟩ => show win1_1.index t (0 : Fin 2) * 5000 + 1 * p.val = 5000 * t.val + p.val; rw [e0]; omega
  | ⟨1, _⟩ => show win1_1.index t (1 : Fin 2) * 1 + 1 * 0 = 0; rw [e1]

/-- Every grid point's block of the padded bond table is the whole table. -/
theorem blk2_eq (c : Dev nD) (t : Fin cfg1.N) :
    (iblk1 V c 2 t : Vec Ideal S128x128 .f32) = (V c main_v42 : S128x128.Idx → EReal) := by
  obtain ⟨-, -, -, -, e0, e1, -⟩ := idx_facts1 t
  funext y
  unfold iblk1
  rw [View.read_apply]
  show V c main_v42 (((cfg1.win 2).blk t).view.emb y) = V c main_v42 y
  refine congrArg (V c main_v42) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- Row p of grid point t's block of the keep column is row 5000 t + p of the column. -/
theorem blk3_apply (c : Dev nD) (t : Fin cfg1.N) (p : Fin 5000) :
    (iblk1 V c 3 t : Vec Ideal S5000x1 .f32) (ix2 p 0) = (V c main_v30 : S1000000x1.Idx → EReal) (ix2 (row t p) 0) := by
  obtain ⟨-, -, -, -, -, -, e0, e1, -⟩ := idx_facts1 t
  unfold iblk1
  rw [View.read_apply]
  show V c main_v30 (((cfg1.win 3).blk t).view.emb (ix2 p 0)) = V c main_v30 (ix2 (row t p) 0)
  refine congrArg (V c main_v30) (funext fun a => Fin.ext ?_)
  match a with
  | ⟨0, _⟩ => show win1_3.index t (0 : Fin 2) * 5000 + 1 * p.val = 5000 * t.val + p.val; rw [e0]; omega
  | ⟨1, _⟩ => show win1_3.index t (1 : Fin 2) * 1 + 1 * 0 = 0; rw [e1]

/-- Where entry (p, q) of grid point t's result block sits in the result array. -/
theorem emb4 (t : Fin cfg1.N) (p : Fin 5000) (q : Fin 128) :
    (((cfg1.win 4).blk t).view.emb (ix2 p q) : S1000000x128.Idx) = ix2 (row t p) q := by
  obtain ⟨-, -, -, -, -, -, -, -, e0, e1⟩ := idx_facts1 t
  refine funext fun a => Fin.ext ?_
  match a with
  | ⟨0, _⟩ => show win1_4.index t (0 : Fin 2) * 5000 + 1 * p.val = 5000 * t.val + p.val; rw [e0]; omega
  | ⟨1, _⟩ => show win1_4.index t (1 : Fin 2) * 128 + 1 * q.val = q.val; rw [e1]; omega

/-- What grid point t writes back is its block of the message function of the whole arrays. -/
theorem flushed1_eq (c : Dev nD) (t : Fin cfg1.N) :
    (dat1 (F := Ideal) V c).flushed 4 t = ((cfg1.win 4).blk t).view.read (Elt Ideal)
      (Spec.message (n := 1000000) (V c main_v39) (V c main_v43) (V c main_v42) (V c main_v30)) := by
  show (cfg1.win 4).cut (grid1.coords t) ((dat1 (F := Ideal) V c).after 4 t) = _
  rw [after1_4]
  unfold out1_4
  rw [View.canon_unit_zero hz]
  simp only [View.ld_unit_zero (S := S5000x1) hz, View.ld_unit_zero (S := S128x128) hz, View.ld_unit_zero (S := S5000x128) hz]
  funext j
  obtain ⟨p, q, rfl⟩ : ∃ (p : Fin 5000) (q : Fin 128), j = ix2 p q := ⟨j 0, j 1, eq_ix2 j⟩
  show k1_pay1 (F := Ideal) (iblk1 V c 1 t) (iblk1 V c 2 t) (iblk1 V c 0 t) (iblk1 V c 3 t) (ix2 p q)
    = Spec.message (n := 1000000) (V c main_v39) (V c main_v43) (V c main_v42) (V c main_v30)
        (((cfg1.win 4).blk t).view.emb (ix2 p q))
  rw [emb4]
  refine (pay_apply (iblk1 V c 1 t) (iblk1 V c 2 t) (iblk1 V c 0 t) (iblk1 V c 3 t) p q).trans ?_
  rw [blk0_apply, blk1_apply, blk2_eq, blk3_apply]
  rfl

/-- Every entry of the result array lies in some grid point's block: row r in the block of point r / 5000. -/
theorem cover1 (i : S1000000x128.Idx) :
    ∃ t : Fin cfg1.N, (cfg1.win 4).flush t = true ∧ i ∈ ((cfg1.win 4).blk t).view.set := by
  have hi0 : (i 0).val < 1000000 := (i 0).isLt
  have hi1 : (i 1).val < 128 := (i 1).isLt
  have hN : cfg1.N = 200 := N_1
  obtain ⟨t, ht⟩ : ∃ t : Fin cfg1.N, t.val = (i 0).val / 5000 := ⟨⟨(i 0).val / 5000, by rw [hN]; omega⟩, rfl⟩
  obtain ⟨-, -, -, -, -, -, -, -, e0, e1⟩ := idx_facts1 t
  refine ⟨t, flush1_4 t, ?_⟩
  show i ∈ ((View.whole main_v44).slice (win1_4.rect t)).set
  rw [View.set_slice_whole, Rect.mem_set_unit]
  intro a
  match a with
  | ⟨0, _⟩ =>
    show win1_4.index t (0 : Fin 2) * 5000 ≤ (i 0).val ∧ (i 0).val < win1_4.index t (0 : Fin 2) * 5000 + 5000
    rw [e0]; omega
  | ⟨1, _⟩ =>
    show win1_4.index t (1 : Fin 2) * 128 ≤ (i 1).val ∧ (i 1).val < win1_4.index t (1 : Fin 2) * 128 + 128
    rw [e1]; omega

end Launch1

/-- The array the second launch leaves in its output window is the message function of the whole arrays. -/
theorem final1 (c : Dev nD) :
    (dat1 (F := Ideal) V c).arrAt 4 cfg1.N
      = Spec.message (n := 1000000) (V c main_v39) (V c main_v43) (V c main_v42) (V c main_v30) :=
  (dat1 (F := Ideal) V c).arrAt_eq_of_cover 4
    (Spec.message (n := 1000000) (V c main_v39) (V c main_v43) (V c main_v42) (V c main_v30))
    (fun t _ => Launch1.flushed1_eq V c t) Launch1.cover1

end Cert.KernelIdeal.RegionValue

end
-- ==== Proof.Region2.lean ====
/-
  The third launch, read as one function of whole arrays. Its grid has 100 points; point t holds rows 5000 t … 5000 t + 4999
  of the input rows and of the result, and the two whole weight matrices and bias vectors. At each point the body
  writes, row by row, the two-layer perceptron of the row. A result row depends on its own input row and the weights
  only, so the blocks are the restrictions of `Spec.mlp` of the whole arrays, and they tile the result array.
-/
import proofs.«402086_j77008763617336_1_alg».proof.Proof.Gen.KernelIdeal.Frame
import proofs.«402086_j77008763617336_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

namespace Launch2

/-! ## The body's stored value at an index -/

/- The operand indices of the product at output index (i0, i1) and contraction index k, axis by axis: the left operand is
   read at (i0, k), the right one at (k, i1). -/
theorem mm_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem mm_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem mm_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem mm_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

set_option maxHeartbeats 400000 in
/-- A product of a 5000-row block with a 128 by 128 matrix into zeros, at (p, q): the sum over k of A(p, k) B(k, q). -/
theorem mm_apply {φ₁ φ₂ : FTy} (A : FVec Ideal S5000x128 φ₁) (B : FVec Ideal S128x128 φ₂) (p : Fin 5000) (q : Fin 128) :
    matmul (F := Ideal) dot_S5000x128_S128x128_S5000x128_1_0_0_1_n_n none A B (constant (F := Ideal) S5000x128 .f32 0x00000000#32) (ix2 p q)
      = ∑ k : Fin 128, A (ix2 p k) * B (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact mm_lhs_0 _ _
    | ⟨1, _⟩ => exact (mm_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (mm_rhs_0 _ _).trans hk
    | ⟨1, _⟩ => exact mm_rhs_1 _ _)
  rw [el, er]

/-- A bias vector, made a one-row array and repeated over 5000 rows, reads at (p, q) its entry q. -/
theorem bias_apply (b : FVec Ideal S128 .f32) (h1 : S128.ShapeCasts S1x128) (h2 : S1x128.Broadcasts S5000x128) (p : Fin 5000) (q : Fin 128) :
    broadcastTo S5000x128 (shapeCast S1x128 b h1) h2 (ix2 p q) = b (ix1 q) :=
  (broadcastTo_1b_ab_apply (shapeCast S1x128 b h1) h2 p q).trans (shapeCast_a_1a_apply b h1 0 q)

set_option maxHeartbeats 400000 in
/-- The body's stored value at row p and column q of its block: the second layer's product of the hidden row of p
    with column q of the second weight matrix, plus the second bias; the hidden row is the first layer's product plus the
    first bias, cut off below at zero. -/
theorem pay_apply (v0 : Vec Ideal S5000x128 .f32) (v3 : Vec Ideal S128x128 .f32) (v6 : Vec Ideal S128 .f32)
    (v13 : Vec Ideal S128x128 .f32) (v16 : Vec Ideal S128 .f32) (p : Fin 5000) (q : Fin 128) :
    k2_pay1 (F := Ideal) v0 v3 v6 v13 v16 (ix2 p q)
      = (∑ k : Fin 128, Spec.hidden (n := 5000) v0 v3 v6 p k * v13 (ix2 k q)) + v16 (ix1 q) := by
  have hzero : (FloatOps.ofBits (F := Ideal) .f32 0x00000000#32 : Ideal .f32) = (0 : EReal) := Ideal.ofBits_zero_f32
  unfold k2_pay1 Spec.hidden
  simp only [addf_apply, maximumf_apply, truncf_apply, broadcast_apply, shapeCast_self, bias_apply, mm_apply, hzero]

/-! ## The windows' blocks as parts of the whole arrays -/

/- The zero offsets of a whole-buffer access, as the constant function. -/
theorem zeros2 : (![0, 0] : Fin 2 → Nat) = fun _ => 0 := funext fun a => by fin_cases a <;> rfl
theorem zeros1 : (![0] : Fin 1 → Nat) = fun _ => 0 := funext fun a => by fin_cases a <;> rfl

/-- The index maps over the grid: the two row-block windows sit at block (t, 0); the weights and biases at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- The grid has 100 points. -/
theorem point_lt (t : Fin cfg2.N) : t.val < 100 := Nat.lt_of_lt_of_eq t.isLt N_2

/-- The first weight matrix's window is the whole matrix at every point. -/
theorem w1_blk (c : Dev nD) (t : Fin cfg2.N) :
    (iblk2 V c 1 t : Vec Ideal S128x128 .f32) = (V c main_arg7 : Vec Ideal S128x128 .f32) := by
  obtain ⟨-, -, e0, e1, -⟩ := idx_facts t
  funext y
  show V c main_arg7 (((cfg2.win 1).blk t).view.emb y) = V c main_arg7 y
  congr 1
  funext a; apply Fin.ext
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- The first bias vector's window is the whole vector at every point. -/
theorem b1_blk (c : Dev nD) (t : Fin cfg2.N) :
    (iblk2 V c 2 t : Vec Ideal S128 .f32) = (V c main_arg8 : Vec Ideal S128 .f32) := by
  obtain ⟨-, -, -, -, e0, -⟩ := idx_facts t
  funext y
  show V c main_arg8 (((cfg2.win 2).blk t).view.emb y) = V c main_arg8 y
  congr 1
  funext a; apply Fin.ext
  match a with
  | ⟨0, _⟩ => show win2_2.index t (0 : Fin 1) * 128 + 1 * (y 0).val = (y 0).val; omega

/-- The second weight matrix's window is the whole matrix at every point. -/
theorem w2_blk (c : Dev nD) (t : Fin cfg2.N) :
    (iblk2 V c 3 t : Vec Ideal S128x128 .f32) = (V c main_arg9 : Vec Ideal S128x128 .f32) := by
  obtain ⟨-, -, -, -, -, e0, e1, -⟩ := idx_facts t
  funext y
  show V c main_arg9 (((cfg2.win 3).blk t).view.emb y) = V c main_arg9 y
  congr 1
  funext a; apply Fin.ext
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The second bias vector's window is the whole vector at every point. -/
theorem b2_blk (c : Dev nD) (t : Fin cfg2.N) :
    (iblk2 V c 4 t : Vec Ideal S128 .f32) = (V c main_arg10 : Vec Ideal S128 .f32) := by
  obtain ⟨-, -, -, -, -, -, -, e0, -⟩ := idx_facts t
  funext y
  show V c main_arg10 (((cfg2.win 4).blk t).view.emb y) = V c main_arg10 y
  congr 1
  funext a; apply Fin.ext
  match a with
  | ⟨0, _⟩ => show win2_4.index t (0 : Fin 1) * 128 + 1 * (y 0).val = (y 0).val; omega

/-- Row p of the input rows' block at point t is row 5000 t + p of the input rows. -/
theorem rows_blk (c : Dev nD) (t : Fin cfg2.N) (p : Fin 5000) (i : Fin 128) (r : Fin 500000) (hr : r.val = 5000 * t.val + p.val) :
    (iblk2 V c 0 t : Vec Ideal S5000x128 .f32) (ix2 p i) = (V c main_v51 : Vec Ideal S500000x128 .f32) (ix2 r i) := by
  obtain ⟨e0, e1, -⟩ := idx_facts t
  show V c main_v51 (((cfg2.win 0).blk t).view.emb (ix2 p i)) = V c main_v51 (ix2 r i)
  congr 1
  funext a; apply Fin.ext
  match a with
  | ⟨0, _⟩ => show win2_0.index t (0 : Fin 2) * 5000 + 1 * p.val = r.val; omega
  | ⟨1, _⟩ => show win2_0.index t (1 : Fin 2) * 128 + 1 * i.val = i.val; omega

/-! ## From the blocks to the array -/

/-- A hidden unit reads its own row of the input only: rows that agree entry by entry give the same unit. -/
theorem hidden_row {n m : Nat} (hp : (Spec.Rows n 128).Idx → EReal) (hp' : (Spec.Rows m 128).Idx → EReal)
    (W1 : (Spec.Rows 128 128).Idx → EReal) (b1 : (Spec.Vect 128).Idx → EReal) (r : Fin n) (r' : Fin m)
    (h : ∀ i : Fin 128, hp (ix2 r i) = hp' (ix2 r' i)) (k : Fin 128) :
    Spec.hidden hp W1 b1 r k = Spec.hidden hp' W1 b1 r' k := by
  unfold Spec.hidden
  simp only [h]

/-- An entry of the perceptron reads its own row of the input only: if row p of a block is row (J 0) of the whole
    input, the block's perceptron at (p, q) is the whole input's at J = (J 0, q). -/
theorem mlp_row {n m : Nat} (hp : (Spec.Rows n 128).Idx → EReal) (hb : (Spec.Rows m 128).Idx → EReal)
    (W1 : (Spec.Rows 128 128).Idx → EReal) (b1 : (Spec.Vect 128).Idx → EReal)
    (W2 : (Spec.Rows 128 128).Idx → EReal) (b2 : (Spec.Vect 128).Idx → EReal)
    (J : (Spec.Rows n 128).Idx) (p : Fin m) (q : Fin 128)
    (hrow : ∀ i : Fin 128, hb (ix2 p i) = hp (ix2 (Spec.rowOf J) i)) (hcol : (J 1).val = q.val) :
    (∑ k : Fin 128, Spec.hidden hb W1 b1 p k * W2 (ix2 k q)) + b2 (ix1 q) = Spec.mlp hp W1 b1 W2 b2 J := by
  have hc : Spec.colOf J = q := Fin.ext hcol
  show _ = (∑ k : Fin 128, Spec.hidden hp W1 b1 (Spec.rowOf J) k * W2 (ix2 k (Spec.colOf J))) + b2 (ix1 (Spec.colOf J))
  rw [hc]
  exact congrArg (· + b2 (ix1 q)) (Finset.sum_congr rfl fun k _ => by rw [hidden_row hb hp W1 b1 p (Spec.rowOf J) hrow k])

set_option maxHeartbeats 400000 in
/-- What point t writes back is block t of the perceptron of the whole input rows: entry (p, q) of the block is the
    perceptron's entry (5000 t + p, q), which reads row 5000 t + p of the input, the block's row p. -/
theorem flushed_eq (c : Dev nD) (t : Fin cfg2.N) :
    (dat2 (F := Ideal) V c).flushed 5 t = ((cfg2.win 5).blk t).view.read (Elt Ideal)
      (Spec.mlp (n := 500000) (V c main_v51) (V c main_arg7) (V c main_arg8) (V c main_arg9) (V c main_arg10)) := by
  show (cfg2.win 5).cut (grid2.coords t) ((dat2 V c).after 5 t) = _
  rw [after2_5]
  unfold out2_5
  rw [View.canon_unit_zero zeros2]
  simp only [View.ld_unit_zero (S := S5000x128) zeros2, View.ld_unit_zero (S := S128x128) zeros2, View.ld_unit_zero (S := S128) zeros1]
  have ht := point_lt t
  obtain ⟨-, -, -, -, -, -, -, -, e0, e1⟩ := idx_facts t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
      = Spec.mlp (n := 500000) (V c main_v51) (V c main_arg7) (V c main_arg8) (V c main_arg9) (V c main_arg10) (((cfg2.win 5).blk t).view.emb (ix2 p q))
  rw [pay_apply, w1_blk, b1_blk, w2_blk, b2_blk]
  refine mlp_row (V c main_v51) (iblk2 V c 0 t) (V c main_arg7) (V c main_arg8) (V c main_arg9) (V c main_arg10)
    (((cfg2.win 5).blk t).view.emb (ix2 p q)) p q (fun i => ?_) ?_
  · exact rows_blk V c t p i (Spec.rowOf (n := 500000) (c := 128) (((cfg2.win 5).blk t).view.emb (ix2 p q)))
      (by show win2_5.index t (0 : Fin 2) * 5000 + 1 * p.val = _; omega)
  · show win2_5.index t (1 : Fin 2) * 128 + 1 * q.val = _; omega

/-- Row r of the result lies in the block of point r / 5000. -/
theorem covered (i : S500000x128.Idx) :
    ∃ t : Fin cfg2.N, (cfg2.win 5).flush t = true ∧ i ∈ ((cfg2.win 5).blk t).view.set := by
  have h0 : (i 0).val < 500000 := (i 0).isLt
  have h1 : (i 1).val < 128 := (i 1).isLt
  let t : Fin cfg2.N := ⟨(i 0).val / 5000, Nat.lt_of_lt_of_eq (by omega) N_2.symm⟩
  obtain ⟨-, -, -, -, -, -, -, -, e0, e1⟩ := idx_facts t
  have ht : t.val = (i 0).val / 5000 := rfl
  refine ⟨t, flush2_5 t, ?_⟩
  show i ∈ ((View.whole main_v52).slice (win2_5.rect t)).set
  rw [View.set_slice_whole, Rect.mem_set_unit]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

end Launch2

open Launch2 in
/-- The array the third launch leaves in its output window is the perceptron of the whole input rows. -/
theorem final2 (c : Dev nD) :
    (dat2 (F := Ideal) V c).arrAt 5 cfg2.N
      = Spec.mlp (n := 500000) (V c main_v51) (V c main_arg7) (V c main_arg8) (V c main_arg9) (V c main_arg10) :=
  (dat2 (F := Ideal) V c).arrAt_eq_of_cover 5
    (Spec.mlp (n := 500000) (V c main_v51) (V c main_arg7) (V c main_arg8) (V c main_arg9) (V c main_arg10))
    (fun t _ => flushed_eq V c t) covered

end Cert.KernelIdeal.RegionValue

end
-- ==== Proof.Shared.lean ====
/-
  What the two programs have in common, as functions of values, and the two results written over them.

  Both programs gather the atom rows of each edge's source, add the bond row, cut off at zero, scale by the edge's keep
  flag, add the messages up at each edge's target atom, mix with (1 + eps) times the atom's own row, pass every atom row
  through a two-layer perceptron, add the rows up per block, divide by the square root of the block's atom count
  (at least one), and zero the masked blocks. They differ in three places only: how an atom row and a bond row are
  looked up (a table gather in one, a sum over all table rows with 0/1 weights in the other), and how the perceptron
  is written (two whole matrix products in one, a row-by-row formula in the other).

  `body H E …` is the common part as a function of the atom rows H and the bond rows E; the reference's result is
  `body` at the two table gathers (`ref_eq`, by unfolding). `kernelBody` is the other program's result, with the three
  differing pieces written as the row-wise functions of `Cert.Spec`.
-/
import proofs.«402086_j77008763617336_1_alg».proof.KernelIdeal
import proofs.«402086_j77008763617336_1_alg».proof.Proof.Gen.ReferenceIdeal.Read
import proofs.«402086_j77008763617336_1_alg».proof.Proof.Spec

noncomputable section

namespace Cert.Shared

open Idealize.ShloMosaic Cert.ReferenceIdeal Cert.ReferenceIdeal.Read

variable [Cert.ReferenceIdeal.Facts] [Cert.KernelIdeal.Facts]
open Cert.ReferenceIdeal.Facts₀ Cert.ReferenceIdeal.Facts

/-! ## The common part -/

/-- The atom rows at each edge's source atom. -/
def gatherSrc (H : FVec Ideal S500000x128 .f32) (x1 : IVec S1000000x3 32) : FVec Ideal S1000000x128 .f32 :=
  Host.gather gather_S500000x128_S1000000x1_S1000000x128_1_0_n_n_0_1_1128 H (val_main_v50 (F := Ideal) x1)

/-- The message of each edge: source row plus bond row, cut off below at zero, scaled by the keep flag. -/
def msgR (hs E : FVec Ideal S1000000x128 .f32) (x1 : IVec S1000000x3 32) (x2 : IVec S500000 32) (x3 : IVec S100000 1) : FVec Ideal S1000000x128 .f32 :=
  mulf (F := Ideal) (maximumf (F := Ideal) (addf (F := Ideal) hs E) (val_main_call0_v0 (F := Ideal))) (val_main_v54 (F := Ideal) x1 x2 x3)

/-- The messages added up at each edge's target atom. -/
def agg (msg : FVec Ideal S1000000x128 .f32) (x1 : IVec S1000000x3 32) : FVec Ideal S500000x128 .f32 :=
  Host.scatterAdd (F := Ideal) scatter_S500000x128_S1000000x1_S1000000x128_1_0_0_1 (val_main_v56 (F := Ideal)) (val_main_v57 (F := Ideal) x1) msg

/-- (1 + eps) times the atom's own row, plus what its incoming edges sent. -/
def hpre (H a : FVec Ideal S500000x128 .f32) (x6 : FVec Ideal S_ .f32) : FVec Ideal S500000x128 .f32 :=
  addf (F := Ideal) (mulf (F := Ideal) (val_main_v60 (F := Ideal) x6) H) a

/-- The two-layer perceptron as two whole matrix products. -/
def mlpR (hp : FVec Ideal S500000x128 .f32) (x7 : FVec Ideal S128x128 .f32) (x8 : FVec Ideal S128 .f32) (x9 : FVec Ideal S128x128 .f32) (x10 : FVec Ideal S128 .f32) : FVec Ideal S500000x128 .f32 :=
  addf (F := Ideal) (Host.dotGeneral (F := Ideal) dot_S500000x128_S128x128_S500000x128_1_0_0_1_n_n none
    (maximumf (F := Ideal) (addf (F := Ideal) (Host.dotGeneral (F := Ideal) dot_S500000x128_S128x128_S500000x128_1_0_0_1_n_n none hp x7) (val_main_v65 (F := Ideal) x8)) (val_main_call1_v0 (F := Ideal))) x9)
    (val_main_v70 (F := Ideal) x10)

/-- From the atoms' new rows to the result: block sums over the square root of the block's count, masked blocks zeroed. -/
def tail (h : FVec Ideal S500000x128 .f32) (x2 : IVec S500000 32) (x3 : IVec S100000 1) : FVec Ideal S100000x128 .f32 :=
  select (val_main_call2_v0 (F := Ideal) x3) (val_main_v86 (F := Ideal))
    (Host.divf (F := Ideal) (Host.scatterAdd (F := Ideal) scatter_S100000x128_S500000x1_S500000x128_1_0_0_1 (val_main_v72 (F := Ideal)) (val_main_v73 (F := Ideal) x2) h)
      (val_main_v83 (F := Ideal) x2))

/-- The common part, from the atom rows H and the bond rows E to the result. -/
def body (H : FVec Ideal S500000x128 .f32) (E : FVec Ideal S1000000x128 .f32) (x1 : IVec S1000000x3 32) (x2 : IVec S500000 32) (x3 : IVec S100000 1)
    (x6 : FVec Ideal S_ .f32) (x7 : FVec Ideal S128x128 .f32) (x8 : FVec Ideal S128 .f32) (x9 : FVec Ideal S128x128 .f32) (x10 : FVec Ideal S128 .f32) : FVec Ideal S100000x128 .f32 :=
  tail (mlpR (hpre H (agg (msgR (gatherSrc H x1) E x1 x2 x3) x1) x6) x7 x8 x9 x10) x2 x3

/-- The reference's result is the common part at the two table gathers. -/
theorem ref_eq (x0 : IVec S500000 32) (x1 : IVec S1000000x3 32) (x2 : IVec S500000 32) (x3 : IVec S100000 1) (x4 : FVec Ideal S128x128 .f32)
    (x5 : FVec Ideal S5x128 .f32) (x6 : FVec Ideal S_ .f32) (x7 : FVec Ideal S128x128 .f32) (x8 : FVec Ideal S128 .f32) (x9 : FVec Ideal S128x128 .f32) (x10 : FVec Ideal S128 .f32) :
    val_main_v87 (F := Ideal) x0 x1 x2 x3 x4 x5 x6 x7 x8 x9 x10
      = body (val_main_v37 (F := Ideal) x0 x4) (val_main_v44 (F := Ideal) x1 x5) x1 x2 x3 x6 x7 x8 x9 x10 := rfl

/-! ## The other program's pieces -/

/-- The atom-type words as a column. -/
def aCol (x0 : IVec S500000 32) : IVec S500000x1 32 := broadcastInDim S500000x1 ![0] bcast_S500000_S500000x1_0 x0

/-- The bond-type words (column 2 of the bond list) as a column. -/
def btCol (x1 : IVec S1000000x3 32) : IVec S1000000x1 32 :=
  broadcastInDim S1000000x1 ![0] bcast_S1000000_S1000000x1_0 (val_main_v13 (F := Ideal) x1)

/-- The bond table written into the first five rows of a 128-row table of zeros. -/
def pad (x5 : FVec Ideal S5x128 .f32) : FVec Ideal S128x128 .f32 :=
  Host.scatter Cert.KernelIdeal.scatter_S128x128_S1_S5x128_01_n_0_0 (fun _ b => b)
    (broadcastInDim Cert.KernelIdeal.S128x128 ![] Cert.KernelIdeal.Facts₀.bcast_S_S128x128 (constant (F := Ideal) Cert.KernelIdeal.S_ .f32 0x00000000#32))
    (broadcastInDim Cert.KernelIdeal.S1 ![] Cert.KernelIdeal.Facts₀.bcast_S_S1 (constantI Cert.KernelIdeal.S_ 32 0#32)) x5

/-- The atom rows as weighted sums of the atom table's rows. -/
def kA0 (x0 : IVec S500000 32) (x4 : FVec Ideal S128x128 .f32) : FVec Ideal S500000x128 .f32 := Spec.embed (aCol x0) x4

/-- The edge messages with the bond rows as weighted sums of the padded bond table's rows. -/
def kA1 (x0 : IVec S500000 32) (x1 : IVec S1000000x3 32) (x2 : IVec S500000 32) (x3 : IVec S100000 1) (x4 : FVec Ideal S128x128 .f32)
    (x5 : FVec Ideal S5x128 .f32) : FVec Ideal S1000000x128 .f32 :=
  Spec.message (gatherSrc (kA0 x0 x4) x1) (btCol x1) (pad x5) (val_main_v30 (F := Ideal) x1 x2 x3)

/-- The atoms' new rows by the row-by-row perceptron. -/
def kA2 (x0 : IVec S500000 32) (x1 : IVec S1000000x3 32) (x2 : IVec S500000 32) (x3 : IVec S100000 1) (x4 : FVec Ideal S128x128 .f32)
    (x5 : FVec Ideal S5x128 .f32) (x6 : FVec Ideal S_ .f32) (x7 : FVec Ideal S128x128 .f32) (x8 : FVec Ideal S128 .f32) (x9 : FVec Ideal S128x128 .f32) (x10 : FVec Ideal S128 .f32) : FVec Ideal S500000x128 .f32 :=
  Spec.mlp (hpre (kA0 x0 x4) (agg (kA1 x0 x1 x2 x3 x4 x5) x1) x6) x7 x8 x9 x10

/-- The other program's result. -/
def kernelBody (x0 : IVec S500000 32) (x1 : IVec S1000000x3 32) (x2 : IVec S500000 32) (x3 : IVec S100000 1) (x4 : FVec Ideal S128x128 .f32)
    (x5 : FVec Ideal S5x128 .f32) (x6 : FVec Ideal S_ .f32) (x7 : FVec Ideal S128x128 .f32) (x8 : FVec Ideal S128 .f32) (x9 : FVec Ideal S128x128 .f32) (x10 : FVec Ideal S128 .f32) : FVec Ideal S100000x128 .f32 :=
  tail (kA2 x0 x1 x2 x3 x4 x5 x6 x7 x8 x9 x10) x2 x3

end Cert.Shared

end
-- ==== Proof.KernelValueA.lean ====
/-
  What each launch reads and what the program returns, as functions of the arguments. Between launches the program
  runs plain array operations; the contents at each boundary are those operations applied to the contents at the
  boundary before, and a launch changes its output array only. Reading a buffer at a boundary therefore walks back
  through the boundaries to the operation that wrote it.
-/
import proofs.«402086_j77008763617336_1_alg».proof.Proof.Gen.KernelIdeal.Frame
import proofs.«402086_j77008763617336_1_alg».proof.Proof.Shared

set_option maxRecDepth 16384

noncomputable section

namespace Cert.KernelIdeal.KValueA

open Cert.KernelIdeal Cert.KernelIdeal.Gen
open Idealize.ShloMosaic Idealize.ShloMosaic.TcCoe Idealize.SL.Sem Idealize.ShloMosaic.StableHlo

variable [Cert.ReferenceIdeal.Facts]
variable (m : (ℓ : Loc nD τ sig) → Buf (Elt Ideal) ℓ) (ρ : Dev nD → PrngReg) (c : Dev nD)

/-- The k-th argument array as launched. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)
abbrev a8 := m ((c.tc : Thread nD τ).loc main_arg8)
abbrev a9 := m ((c.tc : Thread nD τ).loc main_arg9)
abbrev a10 := m ((c.tc : Thread nD τ).loc main_arg10)

/-! ## What the first launch reads -/

/-- The atom-type column the first launch reads is written by the last operation of the first stretch, a
    broadcast of argument 0 along a new unit axis; every earlier operation of the stretch writes another buffer. -/
theorem V1_v31 : V1 m ρ c main_v31 = Shared.aCol (a0 m c) := by
  show StableHlo.after hostOps0 (W0 m ρ c) (Proc.devRef .tc main_v31) = _
  after_results
  rfl

/-- No operation of the first stretch writes an argument, so the atom table is as launched. -/
theorem V1_arg4 : V1 m ρ c main_arg4 = a4 m c := by
  show StableHlo.after hostOps0 (W0 m ρ c) (Proc.devRef .tc main_arg4) = _
  after_results

/-! ## Two columns of the bond list, as the first stretch leaves them

The first stretch cuts the bond list (argument 1) into its three columns and flattens each to a vector. The source
column and the bond-type column are read again after the first launch, which writes neither. They are the same
slice-then-flatten terms as the other program's stages 9 and 13. -/

/-- The source-atom column. -/
theorem W1_v1 : W1 m ρ c (Proc.devRef .tc main_v1) = Cert.ReferenceIdeal.Read.val_main_v9 (F := Ideal) (a1 m c) := by
  show StableHlo.after hostOps0 (W0 m ρ c) (Proc.devRef .tc main_v1) = _
  after_results
  rfl

/-- The bond-type column. -/
theorem W1_v5 : W1 m ρ c (Proc.devRef .tc main_v5) = Cert.ReferenceIdeal.Read.val_main_v13 (F := Ideal) (a1 m c) := by
  show StableHlo.after hostOps0 (W0 m ρ c) (Proc.devRef .tc main_v5) = _
  after_results
  rfl

/-! ## What the second launch reads -/

/-- The gathered source rows: the second stretch wraps negative source indices (adds the atom count where the index
    is below zero), makes them a column and gathers the first launch's output rows at them. The source column comes
    unchanged through the first launch from the first stretch; the wrap is the other program's stages 45 to 50. The
    first launch's output stays the opaque array it is. -/
theorem V3_v39 : V3 m ρ c main_v39 = Shared.gatherSrc (V2 m ρ c main_v32) (a1 m c) := by
  show StableHlo.after hostOps1 (W2 m ρ c) (Proc.devRef .tc main_v39) = _
  after_results
  rw [W2_of_ne m ρ c main_v1 (by decide), W1_v1]
  rfl

/-- The bond-type column: a broadcast along a new unit axis of the bond-type vector, which comes unchanged through
    the first launch from the first stretch. -/
theorem V3_v43 : V3 m ρ c main_v43 = Shared.btCol (a1 m c) := by
  show StableHlo.after hostOps1 (W2 m ρ c) (Proc.devRef .tc main_v43) = _
  after_results
  rw [W2_of_ne m ρ c main_v5 (by decide), W1_v5]
  rfl

/-- The padded bond table: the five-row table (argument 5, as launched: neither the first stretch nor the first
    launch writes it) scattered at row 0 into a 128-row table of zeros. -/
theorem V3_v42 : V3 m ρ c main_v42 = Shared.pad (a5 m c) := by
  show StableHlo.after hostOps1 (W2 m ρ c) (Proc.devRef .tc main_v42) = _
  after_results
  rw [W2_of_ne m ρ c main_arg5 (by decide)]
  have e : W1 m ρ c (Proc.devRef .tc main_arg5) = a5 m c := by
    show StableHlo.after hostOps0 (W0 m ρ c) (Proc.devRef .tc main_arg5) = _
    after_results
  rw [e]
  rfl

/-- The keep flags: neither the second stretch nor the first launch writes them, so they are what the first stretch
    computed: an edge is kept when neither of its end atoms lies in a masked block (block of an atom by argument 2,
    negative block and atom indices wrapped; mask by argument 3), as 0/1 floats in a column. Operation by operation
    this is the other program's chain of stages 0 to 30, the three column cuts coming first here and later there. -/
theorem V3_v30 : V3 m ρ c main_v30 = Cert.ReferenceIdeal.Read.val_main_v30 (F := Ideal) (a1 m c) (a2 m c) (a3 m c) := by
  show StableHlo.after hostOps1 (W2 m ρ c) (Proc.devRef .tc main_v30) = _
  after_results
  rw [W2_of_ne m ρ c main_v30 (by decide)]
  show StableHlo.after hostOps0 (W0 m ρ c) (Proc.devRef .tc main_v30) = _
  after_results_simp
  rfl

end Cert.KernelIdeal.KValueA

end
-- ==== Proof.KernelValueB.lean ====
/-
  What the third launch reads, as functions of the arguments and of the first two launches' outputs. Between launches the program
  runs plain array operations; the contents at each boundary are those operations applied to the contents at the
  boundary before, and a launch changes its output array only. Reading a buffer at a boundary therefore walks back
  through the boundaries to the operation that wrote it.
-/
import proofs.«402086_j77008763617336_1_alg».proof.Proof.Gen.KernelIdeal.Frame
import proofs.«402086_j77008763617336_1_alg».proof.Proof.Shared

set_option maxRecDepth 16384

noncomputable section

namespace Cert.KernelIdeal.KValueB

open Cert.KernelIdeal Cert.KernelIdeal.Gen
open Idealize.ShloMosaic Idealize.ShloMosaic.TcCoe Idealize.SL.Sem Idealize.ShloMosaic.StableHlo

variable [Cert.ReferenceIdeal.Facts]
variable (m : (ℓ : Loc nD τ sig) → Buf (Elt Ideal) ℓ) (ρ : Dev nD → PrngReg) (c : Dev nD)

/-- The k-th argument array as launched. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)
abbrev a8 := m ((c.tc : Thread nD τ).loc main_arg8)
abbrev a9 := m ((c.tc : Thread nD τ).loc main_arg9)
abbrev a10 := m ((c.tc : Thread nD τ).loc main_arg10)

/-! ## What the third launch reads -/

/-- A stretch of array operations none of which writes the buffer leaves it as it was: the stretch is a literal list,
    each operation writes exactly one named buffer, and that name differs from the buffer's. -/
macro "stretch_keeps " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! The third launch reads the array that mixes each atom's own row with what its edges sent, and the perceptron's two
    weight matrices and two bias vectors. The mix is computed by the stretch just before the launch from four buffers:
    the second launch's output (the edge messages), the first launch's output (the atom rows), the vector of target
    atoms cut out of the bond list by the very first stretch, and the argument eps. Each of the four is read where it
    was last written; nothing in between touches it. -/

/-- The atom rows, written by the first launch, are still there when the second launch has ended: neither the
    stretch between the two launches nor the second launch writes them. -/
theorem W4_v32 : W4 m ρ c (Proc.devRef .tc main_v32) = V2 m ρ c main_v32 :=
  calc W4 m ρ c (Proc.devRef .tc main_v32)
    _ = W3 m ρ c (Proc.devRef .tc main_v32) := W4_of_ne m ρ c main_v32 (by decide)
    _ = W2 m ρ c (Proc.devRef .tc main_v32) := by stretch_keeps hostOps1

/-- The argument eps is as launched when the second launch has ended. -/
theorem W4_arg6 : W4 m ρ c (Proc.devRef .tc main_arg6) = a6 m c :=
  calc W4 m ρ c (Proc.devRef .tc main_arg6)
    _ = W3 m ρ c (Proc.devRef .tc main_arg6) := W4_of_ne m ρ c main_arg6 (by decide)
    _ = W2 m ρ c (Proc.devRef .tc main_arg6) := by stretch_keeps hostOps1
    _ = W1 m ρ c (Proc.devRef .tc main_arg6) := W2_of_ne m ρ c main_arg6 (by decide)
    _ = W0 m ρ c (Proc.devRef .tc main_arg6) := by stretch_keeps hostOps0
    _ = m ((c : Thread nD τ).loc main_arg6) := rfl

/-- The target atoms of the edges, as the first stretch leaves them: column 1 of the bond list, flattened to a vector. -/
theorem W1_v3 : W1 m ρ c (Proc.devRef .tc main_v3)
    = (shapeCast _ (extractStridedSlice S1000000x1 ![0, 1] (a1 m c) slices_S1000000x3_S1000000x1_0_1)
        shapeCasts_S1000000x1_S1000000 : IVec S1000000 32) := by
  show StableHlo.after hostOps0 (W0 m ρ c) (Proc.devRef .tc main_v3) = _
  after_results
  rfl

/-- The same vector is still there when the second launch has ended. -/
theorem W4_v3 : W4 m ρ c (Proc.devRef .tc main_v3)
    = (shapeCast _ (extractStridedSlice S1000000x1 ![0, 1] (a1 m c) slices_S1000000x3_S1000000x1_0_1)
        shapeCasts_S1000000x1_S1000000 : IVec S1000000 32) :=
  calc W4 m ρ c (Proc.devRef .tc main_v3)
    _ = W3 m ρ c (Proc.devRef .tc main_v3) := W4_of_ne m ρ c main_v3 (by decide)
    _ = W2 m ρ c (Proc.devRef .tc main_v3) := by stretch_keeps hostOps1
    _ = W1 m ρ c (Proc.devRef .tc main_v3) := W2_of_ne m ρ c main_v3 (by decide)
    _ = _ := W1_v3 m ρ c

/-- The mixed rows: (1 + eps) times the atom's own row plus the messages added up at each edge's target atom. The
    stretch before the third launch computes exactly the operations the shared functions name, on the four buffers
    above; the two sides then differ only in which program's copy of each literal shape and index record they name. -/
theorem V5_v51 : V5 m ρ c main_v51 = Shared.hpre (V2 m ρ c main_v32) (Shared.agg (V4 m ρ c main_v44) (a1 m c)) (a6 m c) := by
  show StableHlo.after hostOps2 (W4 m ρ c) (Proc.devRef .tc main_v51) = _
  after_results
  rw [W4_v32, W4_v3, W4_arg6]
  unfold Shared.hpre Shared.agg Cert.ReferenceIdeal.Read.val_main_v60 Cert.ReferenceIdeal.Read.val_main_v59
    Cert.ReferenceIdeal.Read.val_main_cst_11 Cert.ReferenceIdeal.Read.val_main_v56 Cert.ReferenceIdeal.Read.val_main_cst
    Cert.ReferenceIdeal.Read.val_main_v57 Cert.ReferenceIdeal.Read.val_main_v11 Cert.ReferenceIdeal.Read.val_main_v10
  rfl

/-! The perceptron's weights and biases are arguments: no stretch and no launch before the third writes them. -/

theorem V5_arg7 : V5 m ρ c main_arg7 = a7 m c :=
  calc W5 m ρ c (Proc.devRef .tc main_arg7)
    _ = W4 m ρ c (Proc.devRef .tc main_arg7) := by stretch_keeps hostOps2
    _ = W3 m ρ c (Proc.devRef .tc main_arg7) := W4_of_ne m ρ c main_arg7 (by decide)
    _ = W2 m ρ c (Proc.devRef .tc main_arg7) := by stretch_keeps hostOps1
    _ = W1 m ρ c (Proc.devRef .tc main_arg7) := W2_of_ne m ρ c main_arg7 (by decide)
    _ = W0 m ρ c (Proc.devRef .tc main_arg7) := by stretch_keeps hostOps0
    _ = m ((c : Thread nD τ).loc main_arg7) := rfl
theorem V5_arg8 : V5 m ρ c main_arg8 = a8 m c :=
  calc W5 m ρ c (Proc.devRef .tc main_arg8)
    _ = W4 m ρ c (Proc.devRef .tc main_arg8) := by stretch_keeps hostOps2
    _ = W3 m ρ c (Proc.devRef .tc main_arg8) := W4_of_ne m ρ c main_arg8 (by decide)
    _ = W2 m ρ c (Proc.devRef .tc main_arg8) := by stretch_keeps hostOps1
    _ = W1 m ρ c (Proc.devRef .tc main_arg8) := W2_of_ne m ρ c main_arg8 (by decide)
    _ = W0 m ρ c (Proc.devRef .tc main_arg8) := by stretch_keeps hostOps0
    _ = m ((c : Thread nD τ).loc main_arg8) := rfl
theorem V5_arg9 : V5 m ρ c main_arg9 = a9 m c :=
  calc W5 m ρ c (Proc.devRef .tc main_arg9)
    _ = W4 m ρ c (Proc.devRef .tc main_arg9) := by stretch_keeps hostOps2
    _ = W3 m ρ c (Proc.devRef .tc main_arg9) := W4_of_ne m ρ c main_arg9 (by decide)
    _ = W2 m ρ c (Proc.devRef .tc main_arg9) := by stretch_keeps hostOps1
    _ = W1 m ρ c (Proc.devRef .tc main_arg9) := W2_of_ne m ρ c main_arg9 (by decide)
    _ = W0 m ρ c (Proc.devRef .tc main_arg9) := by stretch_keeps hostOps0
    _ = m ((c : Thread nD τ).loc main_arg9) := rfl
theorem V5_arg10 : V5 m ρ c main_arg10 = a10 m c :=
  calc W5 m ρ c (Proc.devRef .tc main_arg10)
    _ = W4 m ρ c (Proc.devRef .tc main_arg10) := by stretch_keeps hostOps2
    _ = W3 m ρ c (Proc.devRef .tc main_arg10) := W4_of_ne m ρ c main_arg10 (by decide)
    _ = W2 m ρ c (Proc.devRef .tc main_arg10) := by stretch_keeps hostOps1
    _ = W1 m ρ c (Proc.devRef .tc main_arg10) := W2_of_ne m ρ c main_arg10 (by decide)
    _ = W0 m ρ c (Proc.devRef .tc main_arg10) := by stretch_keeps hostOps0
    _ = m ((c : Thread nD τ).loc main_arg10) := rfl

end Cert.KernelIdeal.KValueB

end
-- ==== Proof.KernelValueC.lean ====
/-
  What the program returns, as a function of the third launch's output and two arguments. After the third launch the
  program runs plain array operations only: it adds the atoms' new rows up per block, counts each block's atoms,
  divides by the square root of the count (at least one) and puts zero where the block mask is set. The block numbers
  and the mask are arguments, which no operation and no launch writes, so at the end of the third launch they are as
  launched.
-/
import proofs.«402086_j77008763617336_1_alg».proof.Proof.Gen.KernelIdeal.Frame
import proofs.«402086_j77008763617336_1_alg».proof.Proof.Shared

set_option maxRecDepth 16384

noncomputable section

namespace Cert.KernelIdeal.KValueC

open Cert.KernelIdeal Cert.KernelIdeal.Gen
open Idealize.ShloMosaic Idealize.ShloMosaic.TcCoe Idealize.SL.Sem Idealize.ShloMosaic.StableHlo

variable [Cert.ReferenceIdeal.Facts]
variable (m : (ℓ : Loc nD τ sig) → Buf (Elt Ideal) ℓ) (ρ : Dev nD → PrngReg) (c : Dev nD)

/-- A stretch of array operations none of which writes the buffer leaves it as it was: the stretch is a literal list,
    each operation writes exactly one named buffer, and that name differs from the buffer's. -/
macro "keeps_buffer " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- The block number of each atom is as launched when the third launch has ended: no stretch and no launch writes it. -/
theorem W6_arg2 : W6 m ρ c (Proc.devRef .tc main_arg2) = m ((c.tc : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := by keeps_buffer hostOps2
    _ = W3 m ρ c (Proc.devRef .tc main_arg2) := W4_of_ne m ρ c main_arg2 (by decide)
    _ = W2 m ρ c (Proc.devRef .tc main_arg2) := by keeps_buffer hostOps1
    _ = W1 m ρ c (Proc.devRef .tc main_arg2) := W2_of_ne m ρ c main_arg2 (by decide)
    _ = W0 m ρ c (Proc.devRef .tc main_arg2) := by keeps_buffer hostOps0
    _ = m ((c : Thread nD τ).loc main_arg2) := rfl

/-- The block mask is as launched when the third launch has ended. -/
theorem W6_arg3 : W6 m ρ c (Proc.devRef .tc main_arg3) = m ((c.tc : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := by keeps_buffer hostOps2
    _ = W3 m ρ c (Proc.devRef .tc main_arg3) := W4_of_ne m ρ c main_arg3 (by decide)
    _ = W2 m ρ c (Proc.devRef .tc main_arg3) := by keeps_buffer hostOps1
    _ = W1 m ρ c (Proc.devRef .tc main_arg3) := W2_of_ne m ρ c main_arg3 (by decide)
    _ = W0 m ρ c (Proc.devRef .tc main_arg3) := by keeps_buffer hostOps0
    _ = m ((c : Thread nD τ).loc main_arg3) := rfl

/-- From the atoms' new rows to the result, in this program's own spelling: the rows added up per block, each block's
    atoms counted (a sum of ones), the sums divided by the square root of the count or of one if the count is smaller,
    and zero put where the block mask is set. -/
def tailK (h : FVec Ideal S500000x128 .f32) (x2 : IVec S500000 32) (x3 : IVec S100000 1) : FVec Ideal S100000x128 .f32 :=
  select (broadcastInDim S100000x128 ![0, 1] Cert.KernelIdeal.Facts₀.bcast_S100000x1_S100000x128_0_1 (broadcastInDim S100000x1 ![0] Cert.KernelIdeal.Facts₀.bcast_S100000_S100000x1_0 x3))
    (broadcastInDim S100000x128 ![] Cert.KernelIdeal.Facts₀.bcast_S_S100000x128 (constant (F := Ideal) S_ .f32 0x00000000#32))
    (Host.divf (F := Ideal)
      (Host.scatterAdd (F := Ideal) scatter_S100000x128_S500000x1_S500000x128_1_0_0_1
        (broadcastInDim S100000x128 ![] Cert.KernelIdeal.Facts₀.bcast_S_S100000x128 (constant (F := Ideal) S_ .f32 0x00000000#32))
        (broadcastInDim S500000x1 ![0] Cert.KernelIdeal.Facts₀.bcast_S500000_S500000x1_0 x2) h)
      (broadcastInDim S100000x128 ![0, 1] Cert.KernelIdeal.Facts₀.bcast_S100000x1_S100000x128_0_1
        (broadcastInDim S100000x1 ![0] Cert.KernelIdeal.Facts₀.bcast_S100000_S100000x1_0
          (Host.sqrt (F := Ideal)
            (maximumf (F := Ideal)
              (Host.scatterAdd (F := Ideal) scatter_S100000_S500000x1_S500000_n_0_0_1
                (broadcastInDim S100000 ![] Cert.KernelIdeal.Facts₀.bcast_S_S100000 (constant (F := Ideal) S_ .f32 0x00000000#32))
                (broadcastInDim S500000x1 ![0] Cert.KernelIdeal.Facts₀.bcast_S500000_S500000x1_0 x2)
                (broadcastInDim S500000 ![] Cert.KernelIdeal.Facts₀.bcast_S_S500000 (constant (F := Ideal) S_ .f32 0x3F800000#32)))
              (broadcastInDim S100000 ![] Cert.KernelIdeal.Facts₀.bcast_S_S100000 (constant (F := Ideal) S_ .f32 0x3F800000#32)))))))

set_option maxHeartbeats 8000000 in
/-- The last two stretches compute that function of three buffers as the third launch leaves them: its output, the
    block numbers and the block mask. (The final selection is written through a called function, whose values are
    carried at their buffers' types; carrying a value at a type it already has changes nothing.) -/
theorem W8_v68_own : W8 m ρ c (Proc.devRef .tc main_v68)
    = tailK (W6 m ρ c (Proc.devRef .tc main_v52)) (W6 m ρ c (Proc.devRef .tc main_arg2)) (W6 m ρ c (Proc.devRef .tc main_arg3)) := by
  show StableHlo.after hostOps3_1 (StableHlo.after hostOps3 (W6 m ρ c)) (Proc.devRef .tc main_v68) = _
  after_results
  first | rfl | (unfold tailK; rfl)

/-- The same function in the other program's spelling: the two differ only in which program's copy of each literal
    shape, index record and shape fact they name. -/
theorem tailK_eq (h : FVec Ideal S500000x128 .f32) (x2 : IVec S500000 32) (x3 : IVec S100000 1) :
    tailK h x2 x3 = Shared.tail h x2 x3 := rfl

/-- The returned array is the common tail of the third launch's output, the block numbers and the block mask. -/
theorem W8_v68 : W8 m ρ c (Proc.devRef .tc main_v68)
    = Shared.tail (V6 m ρ c main_v52) (m ((c.tc : Thread nD τ).loc main_arg2)) (m ((c.tc : Thread nD τ).loc main_arg3)) := by
  rw [W8_v68_own, W6_arg2, W6_arg3, tailK_eq]

end Cert.KernelIdeal.KValueC

end
-- ==== Proof.KernelValue.lean ====
/-
  The program's result as one function of its arguments. The returned buffer is the common tail applied to the third
  launch's output; that output is the row-by-row perceptron of what the launch read; what it read is the mix of the
  first launch's output and the summed messages, the messages being the second launch's output; and so on back to the
  arguments. Each step is one equation: a launch's output array as a function of the arrays it read (the three region
  modules), or a buffer at a boundary as a function of earlier buffers (the three boundary modules).
-/
import proofs.«402086_j77008763617336_1_alg».proof.Proof.Region0
import proofs.«402086_j77008763617336_1_alg».proof.Proof.Region1
import proofs.«402086_j77008763617336_1_alg».proof.Proof.Region2
import proofs.«402086_j77008763617336_1_alg».proof.Proof.KernelValueA
import proofs.«402086_j77008763617336_1_alg».proof.Proof.KernelValueB
import proofs.«402086_j77008763617336_1_alg».proof.Proof.KernelValueC

set_option maxRecDepth 16384

noncomputable section

namespace Cert.KernelIdeal.KValue

open Cert.KernelIdeal Cert.KernelIdeal.Gen
open Idealize.ShloMosaic Idealize.ShloMosaic.TcCoe Idealize.SL.Sem

variable [Cert.ReferenceIdeal.Facts]
variable (m : (ℓ : Loc nD τ sig) → Buf (Elt Ideal) ℓ) (ρ : Dev nD → PrngReg) (c : Dev nD)

/-- The first launch's output is the embedding of the atom-type column by the atom table. -/
theorem out0_eq : V2 m ρ c main_v32 = Shared.kA0 (m ((c.tc : Thread nD τ).loc main_arg0)) (m ((c.tc : Thread nD τ).loc main_arg4)) := by
  have h : V2 m ρ c main_v32 = Spec.embed (n := 500000) (V1 m ρ c main_v31) (V1 m ρ c main_arg4) :=
    (hF0 m ρ c 2).symm.trans (RegionValue.final0 (V1 m ρ) c)
  rw [h, KValueA.V1_v31, KValueA.V1_arg4]
  rfl

/-- The second launch's output is the message function of the gathered source rows, the bond-type column, the padded
    bond table and the keep column. -/
theorem out1_eq : V4 m ρ c main_v44
    = Shared.kA1 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  have h : V4 m ρ c main_v44 = Spec.message (n := 1000000) (V3 m ρ c main_v39) (V3 m ρ c main_v43) (V3 m ρ c main_v42) (V3 m ρ c main_v30) :=
    (hF1 m ρ c 4).symm.trans (RegionValue.final1 (V3 m ρ) c)
  rw [h, KValueA.V3_v39, KValueA.V3_v43, KValueA.V3_v42, KValueA.V3_v30, out0_eq]
  rfl

/-- The third launch's output is the row-by-row perceptron of the mixed rows. -/
theorem out2_eq : V6 m ρ c main_v52
    = Shared.kA2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have h : V6 m ρ c main_v52 = Spec.mlp (n := 500000) (V5 m ρ c main_v51) (V5 m ρ c main_arg7) (V5 m ρ c main_arg8) (V5 m ρ c main_arg9) (V5 m ρ c main_arg10) :=
    (hF2 m ρ c 5).symm.trans (RegionValue.final2 (V5 m ρ) c)
  rw [h, KValueB.V5_v51, KValueB.V5_arg7, KValueB.V5_arg8, KValueB.V5_arg9, KValueB.V5_arg10, out0_eq, out1_eq]
  rfl

/-- The returned buffer, at the last boundary, is the result function of the arguments. -/
theorem result_eq : W8 m ρ c (Proc.devRef .tc main_v68)
    = Shared.kernelBody (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [KValueC.W8_v68, out2_eq]
  rfl

end Cert.KernelIdeal.KValue

end
-- ==== Proof.SpecLaws.lean ====
/-
  A weighted sum of table rows with weight 1 on one row and 0 on the others is that row: the other terms are 0 times an
  extended real, which is 0 whatever the real (infinities included), and the one term left is 1 times the row's entry.
-/
import proofs.«402086_j77008763617336_1_alg».proof.Proof.Spec

noncomputable section

open scoped BigOperators

namespace Cert.Spec

open Idealize.ShloMosaic Idealize.ShloMosaic.ValueIdx

/-- The weight of row v under a word below 128 is 1 exactly at the row the word counts. -/
theorem hot_eq (w : BitVec 32) (h : w.toNat < 128) (v : Fin 128) : hot w v = if v = ⟨w.toNat, h⟩ then 1 else 0 := by
  unfold hot
  -- the word is the 32-bit word of v exactly when v is the number the word counts: both are below 2^32
  have key : w = BitVec.ofNat 32 v.val ↔ v = ⟨w.toNat, h⟩ := by
    constructor
    · intro e
      apply Fin.ext
      have e' := congrArg BitVec.toNat e
      rw [BitVec.toNat_ofNat] at e'
      have hv := v.isLt
      show v.val = w.toNat
      omega
    · intro e
      subst e
      show w = BitVec.ofNat 32 w.toNat
      exact BitVec.eq_of_toNat_eq (by rw [BitVec.toNat_ofNat]; exact (Nat.mod_eq_of_lt w.isLt).symm)
  by_cases hv : v = ⟨w.toNat, h⟩
  · rw [if_pos hv, if_pos (key.2 hv)]
  · rw [if_neg hv, if_neg (fun e => hv (key.1 e))]

/-- A word below 128 picks its own row of the table. -/
theorem pick_of_lt (w : BitVec 32) (tbl : (Rows 128 128).Idx → EReal) (q : Fin 128) (h : w.toNat < 128) :
    pick w tbl q = tbl (ix2 ⟨w.toNat, h⟩ q) := by
  unfold pick
  rw [Finset.sum_eq_single (⟨w.toNat, h⟩ : Fin 128)]
  · rw [hot_eq w h, if_pos rfl, one_mul]
  · intro v _ hv
    rw [hot_eq w h, if_neg hv, zero_mul]
  · intro hn
    exact absurd (Finset.mem_univ _) hn

end Cert.Spec

end
-- ==== Proof.LibGatherScatter.lean ====
/-
  How a gather and a float scatter-add read AT ONE INDEX, for four dimension-number records:
  a gather of table rows and a gather of vector entries by a column of start words, and the scatter-adds that send
  update rows, or update entries, back to the rows those words name.

  A gather reads its start word SIGNED and CLAMPS it into the table: a negative word reads row 0, a word past the end
  reads the last row. A scatter-add reads the word signed and does NOT clamp: an update whose word is outside the table
  is dropped, so operand entry i receives exactly the updates whose word, as an integer, equals i.

  Every statement is for an arbitrary record whose fields are given as hypotheses, so that it applies to any record
  with those fields, at arbitrary extents.
-/
import Idealize.ShloMosaic.PureOps.Ideal
import Idealize.ShloMosaic.Lib.ValueIdx
import Idealize.ShloMosaic.Lib.StableHlo.Predicate

noncomputable section

open scoped BigOperators

namespace Cert.LibGS

open Idealize.ShloMosaic Idealize.ShloMosaic.ValueIdx

/-- The shape of an array of N rows and C columns. -/
abbrev Sh (N C : Nat) : Shape := ⟨2, ![N, C]⟩

/-- An N × C array of extended reals. -/
abbrev RArr (N C : Nat) : Type := (Sh N C).Idx → EReal

/-- The table row a start word names: the word read signed, clamped into the N rows. -/
def rowOf (N : Nat) (hN : 0 < N) (w : BitVec 32) : Fin N := ⟨min w.toInt.toNat (N - 1), by omega⟩

/-! ## The row gather: one table row per start word -/

section GatherRows

variable {N n C : Nat} (d : GatherDims (Sh N C) (Sh n 1) (Sh n C))

/-- An index of the result read on an axis known to be the first gives the row coordinate. -/
theorem ix2_val_zero {a b : Nat} (e : Fin a) (c : Fin b) (X : Fin 2) (h : X = 0) : (ix2 e c X).val = e.val := by
  subst h; rfl

/-- An index of the result read on an axis known to be the second gives the column coordinate. -/
theorem ix2_val_one {a b : Nat} (e : Fin a) (c : Fin b) (X : Fin 2) (h : X = 1) : (ix2 e c X).val = c.val := by
  subst h; rfl

/-- When the second axis is the one offset axis, the result's batch axes are the first alone. -/
theorem rows_batch_mem (hoff : d.offsetDims = [1]) (X : Fin (Sh n C).rank) (hX : X ∈ d.batchDims) : X = (0 : Fin 2) := by
  have h1 : X ∉ d.offsetDims := by
    have := (List.mem_filter.1 hX).2
    simpa using this
  rw [hoff] at h1
  match X with
  | ⟨0, _⟩ => rfl
  | ⟨1, _⟩ => exact absurd (List.mem_singleton.mpr rfl) h1

/-- The start word a result entry (e, c) reads is the one in row e of the index column. -/
theorem rows_siIdx (hoff : d.offsetDims = [1]) (hsim : d.startIndexMap = [0]) (hivd : d.indexVectorDim = 1)
    (e : Fin n) (c : Fin C) (k : Fin d.startIndexMap.length) : d.siIdx (ix2 e c) k = ix2 e 0 := by
  funext b
  match b with
  | ⟨0, _⟩ =>
    unfold GatherDims.siIdx
    rw [dif_neg (by rw [hivd]; exact Nat.zero_ne_one)]
    unfold GatherDims.siCoord
    apply Fin.ext
    simp only [Fin.val_cast]
    exact ix2_val_zero e c _ (rows_batch_mem d hoff _ (List.getElem_mem _))
  | ⟨1, _⟩ =>
    unfold GatherDims.siIdx
    rw [dif_pos (by rw [hivd])]
    apply Fin.ext
    have hlen : d.startIndexMap.length = 1 := by rw [hsim]; rfl
    have hk : k.val < d.startIndexMap.length := k.isLt
    show k.val = 0
    omega

end GatherRows

section GatherRows2
variable {N n C : Nat} (d : GatherDims (Sh N C) (Sh n 1) (Sh n C))

/-- On the table's row axis the operand index is the start word, read signed and clamped into the table. -/
theorem rows_operand_zero (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (idx : IVec (Sh n 1) 32) (e : Fin n) (c : Fin C) :
    (d.operandIdx (ix2 e c) idx (0 : Fin 2)).val = (rowOf N hN (idx (ix2 e 0))).val := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes (0 : Fin 2) = 1 := by rw [hss]; rfl
  simp only [GatherDims.operandIdx, GatherDims.batchCoord_eq_zero _ _ _ hb, GatherDims.offCoord_eq_zero _ _ _ hk,
    Nat.add_zero, GatherDims.start, dif_pos hm, hsl, rows_siIdx d hoff hsim hivd]
  rfl

/-- On the table's column axis the operand index is the result's column. -/
theorem rows_operand_one (hoff : d.offsetDims = [1]) (hcoll : d.collapsedSliceDims = [0])
    (hob : d.operandBatchingDims = []) (hsim : d.startIndexMap = [0])
    (idx : IVec (Sh n 1) 32) (e : Fin n) (c : Fin C) :
    (d.operandIdx (ix2 e c) idx (1 : Fin 2)).val = c.val := by
  have hb : (1 : Fin 2) ∉ d.operandBatchingDims := by rw [hob]; exact List.not_mem_nil
  have hm : (1 : Fin 2) ∉ d.startIndexMap := by rw [hsim]; show (1 : Fin 2) ∉ [(0 : Fin 2)]; decide
  have hk : (1 : Fin 2) ∈ d.sKept := by rw [GatherDims.mem_sKept, hcoll, hob]; show (1 : Fin 2) ∉ [(0 : Fin 2)] ∧ (1 : Fin 2) ∉ []; decide
  have hall : ∀ X ∈ d.offsetDims, X = (1 : Fin 2) := by rw [hoff]; simp
  simp only [GatherDims.operandIdx, GatherDims.batchCoord_eq_zero _ _ _ hb, GatherDims.start, dif_neg hm,
    GatherDims.offCoord, dif_pos hk, Nat.zero_add, Nat.add_zero]
  exact ix2_val_one e c _ (hall _ (List.getElem_mem _))

/-- THE ROW GATHER AT ONE ENTRY: entry (e, c) of the result is column c of the table row that start word e names. -/
theorem gather_rows_gen {α : Type} (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (t : (Sh N C).Idx → α) (idx : IVec (Sh n 1) 32) (e : Fin n) (c : Fin C) :
    Host.gather d t idx (ix2 e c) = t (ix2 (rowOf N hN (idx (ix2 e 0))) c) := by
  unfold Host.gather
  congr 1
  funext a
  refine Fin.ext ?_
  match a with
  | ⟨0, _⟩ => exact rows_operand_zero d hN hoff hcoll hob hsim hivd hss idx e c
  | ⟨1, _⟩ => exact rows_operand_one d hoff hcoll hob hsim idx e c

end GatherRows2

/-! ## The vector gather: one entry per start word -/

/-- The rank-1 index at a coordinate, written in two ways. -/
theorem ix1_eq_ofFin {n : Nat} (e : Fin n) : ix1 e = Shape.Idx.ofFin e := by
  funext a
  match a with
  | ⟨0, _⟩ => exact Fin.ext rfl

/-- Row e of an index column, written in two ways. -/
theorem ixP_eq_ix2 {n : Nat} (e : Fin n) : StableHlo.Predicate.ixP e = ix2 e (0 : Fin 1) := by
  funext a
  match a with
  | ⟨0, _⟩ => rfl
  | ⟨1, _⟩ => rfl

/-- THE VECTOR GATHER AT ONE ENTRY: entry e of the result is the vector's entry that start word e names. -/
theorem gather_vec_gen {α : Type} {N n : Nat} (hN : 0 < N) (d : GatherDims ⟨1, ![N]⟩ (Sh n 1) ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec (Sh n 1) 32) (e : Fin n) :
    Host.gather d x idx (ix1 e) = x (ix1 (rowOf N hN (idx (ix2 e 0)))) := by
  rw [ix1_eq_ofFin, ix1_eq_ofFin, StableHlo.Predicate.gather_take d hcoll hob hsim hivd x idx e hN]
  refine congrArg x (congrArg Shape.Idx.ofFin (Fin.ext ?_))
  show min (idx (StableHlo.Predicate.ixP e)).toInt.toNat (N - 1) = min (idx (ix2 e 0)).toInt.toNat (N - 1)
  rw [ixP_eq_ix2]

/-! ## The row scatter-add -/

/-- An index read on two names of one axis gives one coordinate. -/
theorem idx2_val_congr {a b : Nat} (j : (Sh a b).Idx) (X Y : Fin 2) (h : X = Y) : (j X).val = (j Y).val := by
  subst h; rfl

section ScatterRows
variable {N n C : Nat} (d : ScatterDims (Sh N C) (Sh n 1) (Sh n C))

/-- When the second axis is the one window axis, the updates' scatter axes are the first alone. -/
theorem srows_scatter_mem (huw : d.updateWindowDims = [1]) (X : Fin (Sh n C).rank) (hX : X ∈ d.uScatter) : X = (0 : Fin 2) := by
  have h1 : X ∉ d.updateWindowDims := by
    have := (List.mem_filter.1 hX).2
    simpa using this
  rw [huw] at h1
  match X with
  | ⟨0, _⟩ => rfl
  | ⟨1, _⟩ => exact absurd (List.mem_singleton.mpr rfl) h1

/-- The start word an update entry j reads is the one in j's row of the index column. -/
theorem srows_siIdx (huw : d.updateWindowDims = [1]) (hsd : d.scatterDimsToOperandDims = [0]) (hivd : d.indexVectorDim = 1)
    (j : (Sh n C).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    exact idx2_val_congr j _ 0 (srows_scatter_mem d huw _ (List.getElem_mem _))
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

/-- The window's start on the row axis is the start word read signed. -/
theorem srows_start_zero (huw : d.updateWindowDims = [1]) (hsd : d.scatterDimsToOperandDims = [0]) (hivd : d.indexVectorDim = 1)
    (idx : IVec (Sh n 1) 32) (j : (Sh n C).Idx) : d.start j idx (0 : Fin 2) = (idx (ix2 (j 0) 0)).toInt := by
  have hm : (0 : Fin 2) ∈ d.scatterDimsToOperandDims := by rw [hsd]; exact List.mem_singleton.mpr rfl
  unfold ScatterDims.start
  rw [dif_pos hm, srows_siIdx d huw hsd hivd]
  rfl

/-- The window's start on the column axis is zero. -/
theorem srows_start_one (hsd : d.scatterDimsToOperandDims = [0])
    (idx : IVec (Sh n 1) 32) (j : (Sh n C).Idx) : d.start j idx (1 : Fin 2) = 0 := by
  have hm : (1 : Fin 2) ∉ d.scatterDimsToOperandDims := by rw [hsd]; show (1 : Fin 2) ∉ [(0 : Fin 2)]; decide
  unfold ScatterDims.start
  rw [dif_neg hm]

/-- The window coordinate on the row axis, an inserted one, is zero. -/
theorem srows_window_zero (hiw : d.insertedWindowDims = [0]) (j : (Sh n C).Idx) : d.window j (0 : Fin 2) = 0 := by
  have hk : (0 : Fin 2) ∉ d.sKept := by
    intro h
    have := (List.mem_filter.1 h).2
    rw [hiw] at this
    simp at this
  unfold ScatterDims.window
  rw [dif_neg hk]

/-- The window coordinate on the column axis is the update's column. -/
theorem srows_window_one (huw : d.updateWindowDims = [1]) (hiw : d.insertedWindowDims = [0]) (j : (Sh n C).Idx) :
    d.window j (1 : Fin 2) = (j 1).val := by
  have hk : (1 : Fin 2) ∈ d.sKept := by
    refine List.mem_filter.2 ⟨List.mem_finRange _, ?_⟩
    rw [hiw]
    show decide ((1 : Fin 2) ∉ [(0 : Fin 2)]) = true
    decide
  have hall : ∀ X ∈ d.updateWindowDims, X = (1 : Fin 2) := by rw [huw]; simp
  unfold ScatterDims.window
  rw [dif_pos hk]
  exact idx2_val_congr j _ 1 (hall _ (List.getElem_mem _))

end ScatterRows

section ScatterRows2
variable {N n C : Nat} (d : ScatterDims (Sh N C) (Sh n 1) (Sh n C))

/-- WHERE AN UPDATE LANDS. Update entry j lands on operand entry t exactly when j's start word, read signed, is t's row
    and j's column is t's column. -/
theorem srows_resultIdx_iff (huw : d.updateWindowDims = [1]) (hiw : d.insertedWindowDims = [0])
    (hsd : d.scatterDimsToOperandDims = [0]) (hivd : d.indexVectorDim = 1)
    (idx : IVec (Sh n 1) 32) (j : (Sh n C).Idx) (t : (Sh N C).Idx) :
    d.resultIdx? j idx = some t ↔ (idx (ix2 (j 0) 0)).toInt = ((t 0).val : ℤ) ∧ (j 1).val = (t 1).val := by
  have hs0 := srows_start_zero d huw hsd hivd idx j
  have hs1 := srows_start_one d hsd idx j
  have hw0 := srows_window_zero d hiw j
  have hw1 := srows_window_one d huw hiw j
  have ht0 : (t 0).val < N := idx2_lt0 t
  have ht1 : (t 1).val < C := idx2_lt1 t
  constructor
  · intro h
    unfold ScatterDims.resultIdx? at h
    split at h
    · rename_i hh
      have hf := Option.some.inj h
      have h0 : (d.start j idx (0 : Fin 2) + d.window j (0 : Fin 2)).toNat = (t 0).val :=
        congrArg (fun f : (Sh N C).Idx => (f 0).val) hf
      have h1 : (d.start j idx (1 : Fin 2) + d.window j (1 : Fin 2)).toNat = (t 1).val :=
        congrArg (fun f : (Sh N C).Idx => (f 1).val) hf
      have hh0 := (hh (0 : Fin 2)).1
      rw [hs0, hw0] at h0 hh0
      rw [hs1, hw1] at h1
      constructor <;> omega
    · exact absurd h (by simp)
  · rintro ⟨h0, h1⟩
    have hh : ∀ a, 0 ≤ d.start j idx a + d.window j a ∧ d.start j idx a + d.window j a < (Sh N C).size a := by
      intro a
      match a with
      | ⟨0, _⟩ =>
        show 0 ≤ d.start j idx (0 : Fin 2) + d.window j (0 : Fin 2) ∧ d.start j idx (0 : Fin 2) + d.window j (0 : Fin 2) < (N : ℤ)
        rw [hs0, hw0, h0]
        omega
      | ⟨1, _⟩ =>
        show 0 ≤ d.start j idx (1 : Fin 2) + d.window j (1 : Fin 2) ∧ d.start j idx (1 : Fin 2) + d.window j (1 : Fin 2) < (C : ℤ)
        rw [hs1, hw1, h1]
        omega
    unfold ScatterDims.resultIdx?
    rw [dif_pos hh]
    congr 1
    funext a
    apply Fin.ext
    match a with
    | ⟨0, _⟩ =>
      show (d.start j idx (0 : Fin 2) + d.window j (0 : Fin 2)).toNat = (t 0).val
      rw [hs0, hw0, h0]
      omega
    | ⟨1, _⟩ =>
      show (d.start j idx (1 : Fin 2) + d.window j (1 : Fin 2)).toNat = (t 1).val
      rw [hs1, hw1, h1]
      omega

end ScatterRows2

section ScatterRows3
variable {N n C : Nat} (d : ScatterDims (Sh N C) (Sh n 1) (Sh n C))

/-- THE ROW SCATTER-ADD AT ONE ENTRY: entry (i, c) of the result is the operand's entry plus column c of every update
    row whose start word, read signed, is i. (A word outside the table matches no i: its row is dropped.) -/
theorem scatterAdd_rows_gen (huw : d.updateWindowDims = [1]) (hiw : d.insertedWindowDims = [0])
    (hsd : d.scatterDimsToOperandDims = [0]) (hivd : d.indexVectorDim = 1)
    (x : RArr N C) (idx : IVec (Sh n 1) 32) (u : RArr n C) (i : Fin N) (c : Fin C) :
    Ideal.hostScatterAdd d x idx u (ix2 i c)
      = x (ix2 i c) + ∑ e ∈ Finset.univ.filter (fun e : Fin n => (idx (ix2 e 0)).toInt = (i.val : ℤ)), u (ix2 e c) := by
  have key := fun j => srows_resultIdx_iff d huw hiw hsd hivd idx j (ix2 i c)
  have back : ∀ j : (Sh n C).Idx, (j 1).val = c.val → ix2 (j 0) c = j := by
    intro j hj
    funext a
    match a with
    | ⟨0, _⟩ => rfl
    | ⟨1, _⟩ => exact Fin.ext hj.symm
  unfold Ideal.hostScatterAdd
  congr 1
  refine Finset.sum_bij' (fun j _ => j 0) (fun e _ => ix2 e c) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e c)).2 ⟨(Finset.mem_filter.1 he).2, rfl⟩⟩
  · intro j hj
    exact back j ((key j).1 (Finset.mem_filter.1 hj).2).2
  · intro e he
    rfl
  · intro j hj
    exact congrArg u (back j ((key j).1 (Finset.mem_filter.1 hj).2).2).symm

end ScatterRows3

/-! ## The vector scatter-add -/

section ScatterVec
variable {N n : Nat} (d : ScatterDims ⟨1, ![N]⟩ (Sh n 1) ⟨1, ![n]⟩)

/-- The start word update entry j reads is the one in row j of the index column (the updates have one axis). -/
theorem svec_siIdx (hsd : d.scatterDimsToOperandDims = [0]) (hivd : d.indexVectorDim = 1)
    (j : (⟨1, ![n]⟩ : Shape).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

/-- The window's start on the vector's one axis is the start word read signed. -/
theorem svec_start (hsd : d.scatterDimsToOperandDims = [0]) (hivd : d.indexVectorDim = 1)
    (idx : IVec (Sh n 1) 32) (j : (⟨1, ![n]⟩ : Shape).Idx) : d.start j idx (0 : Fin 1) = (idx (ix2 (j 0) 0)).toInt := by
  have hm : (0 : Fin 1) ∈ d.scatterDimsToOperandDims := by rw [hsd]; exact List.mem_singleton.mpr rfl
  unfold ScatterDims.start
  rw [dif_pos hm, svec_siIdx d hsd hivd]
  rfl

/-- The window coordinate on the vector's one axis, an inserted one, is zero. -/
theorem svec_window (hiw : d.insertedWindowDims = [0]) (j : (⟨1, ![n]⟩ : Shape).Idx) : d.window j (0 : Fin 1) = 0 := by
  have hk : (0 : Fin 1) ∉ d.sKept := by
    intro h
    have := (List.mem_filter.1 h).2
    rw [hiw] at this
    simp at this
  unfold ScatterDims.window
  rw [dif_neg hk]

/-- WHERE AN UPDATE LANDS. Update entry j lands on operand entry t exactly when j's start word, read signed, is t. -/
theorem svec_resultIdx_iff (hiw : d.insertedWindowDims = [0]) (hsd : d.scatterDimsToOperandDims = [0])
    (hivd : d.indexVectorDim = 1) (idx : IVec (Sh n 1) 32) (j : (⟨1, ![n]⟩ : Shape).Idx) (t : (⟨1, ![N]⟩ : Shape).Idx) :
    d.resultIdx? j idx = some t ↔ (idx (ix2 (j 0) 0)).toInt = ((t 0).val : ℤ) := by
  have hs0 := svec_start d hsd hivd idx j
  have hw0 := svec_window d hiw j
  have ht0 : (t 0).val < N := (t 0).isLt
  constructor
  · intro h
    unfold ScatterDims.resultIdx? at h
    split at h
    · rename_i hh
      have hf := Option.some.inj h
      have h0 : (d.start j idx (0 : Fin 1) + d.window j (0 : Fin 1)).toNat = (t 0).val :=
        congrArg (fun f : (⟨1, ![N]⟩ : Shape).Idx => (f 0).val) hf
      have hh0 := (hh (0 : Fin 1)).1
      rw [hs0, hw0] at h0 hh0
      omega
    · exact absurd h (by simp)
  · intro h0
    have hh : ∀ a, 0 ≤ d.start j idx a + d.window j a ∧ d.start j idx a + d.window j a < (⟨1, ![N]⟩ : Shape).size a := by
      intro a
      match a with
      | ⟨0, _⟩ =>
        show 0 ≤ d.start j idx (0 : Fin 1) + d.window j (0 : Fin 1) ∧ d.start j idx (0 : Fin 1) + d.window j (0 : Fin 1) < (N : ℤ)
        rw [hs0, hw0, h0]
        omega
    unfold ScatterDims.resultIdx?
    rw [dif_pos hh]
    congr 1
    funext a
    apply Fin.ext
    match a with
    | ⟨0, _⟩ =>
      show (d.start j idx (0 : Fin 1) + d.window j (0 : Fin 1)).toNat = (t 0).val
      rw [hs0, hw0, h0]
      omega

/-- THE VECTOR SCATTER-ADD AT ONE ENTRY: entry i of the result is the operand's entry plus every update entry whose
    start word, read signed, is i. -/
theorem scatterAdd_vec_gen (hiw : d.insertedWindowDims = [0]) (hsd : d.scatterDimsToOperandDims = [0])
    (hivd : d.indexVectorDim = 1) (x : (⟨1, ![N]⟩ : Shape).Idx → EReal) (idx : IVec (Sh n 1) 32)
    (u : (⟨1, ![n]⟩ : Shape).Idx → EReal) (i : Fin N) :
    Ideal.hostScatterAdd d x idx u (ix1 i)
      = x (ix1 i) + ∑ e ∈ Finset.univ.filter (fun e : Fin n => (idx (ix2 e 0)).toInt = (i.val : ℤ)), u (ix1 e) := by
  have key := fun j => svec_resultIdx_iff d hiw hsd hivd idx j (ix1 i)
  unfold Ideal.hostScatterAdd
  congr 1
  refine Finset.sum_bij' (fun j _ => j 0) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key (ix1 e)).2 (Finset.mem_filter.1 he).2⟩
  · intro j hj
    exact (eq_ix1 j).symm
  · intro e he
    rfl
  · intro j hj
    exact congrArg u (eq_ix1 j)

end ScatterVec

end Cert.LibGS

end
-- ==== Proof.BridgeEmbed.lean ====
/-
  The atom rows, two ways. A sum over all 128 table rows with weight 1 on the row whose number is the word and 0 elsewhere
  is that row. A table gather reads its start word signed, wraps a negative word by the row count and clamps the result
  into the table; for a word that is at least 0 and below the row count neither changes it, so it reads that same row.
-/
import proofs.«402086_j77008763617336_1_alg».proof.Proof.Shared
import proofs.«402086_j77008763617336_1_alg».proof.Proof.SpecLaws
import proofs.«402086_j77008763617336_1_alg».proof.Proof.LibGatherScatter
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

set_option maxRecDepth 16384

noncomputable section

open scoped BigOperators

namespace Cert.Bridge

open Idealize.ShloMosaic Idealize.ShloMosaic.ValueIdx Cert.ReferenceIdeal Cert.ReferenceIdeal.Read Cert.Shared

variable [Cert.ReferenceIdeal.Facts] [Cert.KernelIdeal.Facts]

/-- A word below 2³¹ is not negative when read signed, so the wrap of a negative index leaves it as it is. -/
theorem wrap_of_small (w a : BitVec 32) (h : w.toNat < 2 ^ 31) :
    Scalar.select (IntOp.cmpi .slt w 0#32) a w = w := by
  have hc : ¬ (IntOp.cmpi .slt w 0#32 = 1#1) := by
    intro e
    have hlt := (StableHlo.Predicate.slt_iff_toNat h (by decide)).1 e
    exact absurd hlt (Nat.not_lt_zero _)
  exact if_neg hc

/-- The atom-type words as a column, read at row n, give the word of atom n. -/
theorem aCol_apply (x0 : IVec S500000 32) (n : Fin 500000) : aCol x0 (ix2 n (0 : Fin 1)) = x0 (ix1 n) := by
  unfold aCol
  exact broadcastInDim_apply _ _ x0 (ix2 n (0 : Fin 1)) (ix1 n) (fun a => match a with
    | ⟨0, _⟩ => by show n.val = if (500000 : Nat) = 1 then 0 else n.val; rw [if_neg (by decide)])

/-- The gather's index column, read at row n, is the word of atom n itself when that word is below 128:
    it is not negative, so it is not wrapped. -/
theorem idxCol_apply (x0 : IVec S500000 32) (n : Fin 500000) (h : (x0 (ix1 n)).toNat < 128) :
    val_main_v36 (F := Ideal) x0 (ix2 n (0 : Fin 1)) = x0 (ix1 n) := by
  have e : idx_main_v36 (ix2 n (0 : Fin 1)) = ix1 n := by
    funext a
    match a with
    | ⟨0, _⟩ => rfl
  rw [val_main_v36_apply, e, val_main_v35_apply, val_main_v32_apply, val_main_v31_apply, val_main_c_5_apply]
  exact wrap_of_small _ _ (by omega)

/-- A word below 128, read signed and clamped into the 128 rows, names the row it counts. -/
theorem rowOf_of_lt (w : BitVec 32) (h : w.toNat < 128) : LibGS.rowOf 128 (by decide) w = ⟨w.toNat, h⟩ := by
  apply Fin.ext
  show min w.toInt.toNat (128 - 1) = w.toNat
  rw [StableHlo.Predicate.toInt_eq_toNat_of_lt (by omega), Int.toNat_natCast]
  omega

/-- With every atom-type word below 128, the weighted sum of the atom table's rows is the table gather. -/
theorem embed_eq_gather (x0 : IVec S500000 32) (x4 : FVec Ideal S128x128 .f32)
    (hA : ∀ n : Fin 500000, (x0 (ix1 n)).toNat < 128) :
    kA0 x0 x4 = val_main_v37 (F := Ideal) x0 x4 := by
  funext j
  obtain ⟨n, d, rfl⟩ : ∃ (n : Fin 500000) (d : Fin 128), j = ix2 n d := ⟨j 0, j 1, eq_ix2 j⟩
  have hw := hA n
  -- the weighted sum at (n, d): the word of atom n picks its own row of the table
  have hL : kA0 x0 x4 (ix2 n d) = x4 (ix2 ⟨(x0 (ix1 n)).toNat, hw⟩ d) := by
    show Spec.pick (aCol x0 (ix2 n (0 : Fin 1))) x4 d = _
    rw [aCol_apply]
    exact Spec.pick_of_lt _ x4 d hw
  -- the gather at (n, d): column d of the row that the start word of row n names
  have hR : val_main_v37 (F := Ideal) x0 x4 (ix2 n d)
      = x4 (ix2 (LibGS.rowOf 128 (by decide) (val_main_v36 (F := Ideal) x0 (ix2 n (0 : Fin 1)))) d) := by
    unfold val_main_v37
    exact LibGS.gather_rows_gen gather_S128x128_S500000x1_S500000x128_1_0_n_n_0_1_1128 (by decide)
      rfl rfl rfl rfl rfl rfl x4 (val_main_v36 (F := Ideal) x0) n d
  rw [hL, hR, idxCol_apply x0 n hw, rowOf_of_lt _ hw]

end Cert.Bridge

end
-- ==== Proof.BridgeMessage.lean ====
/-
  The edge messages, two ways. The bond table has 5 rows; one program writes it into rows 0 … 4 of a 128-row table of
  zeros and takes the weighted sum of all 128 rows, the other gathers from the 5-row table. For a bond-type word that is
  at least 0 and below 5 both read the same row: the padded table agrees with the bond table on rows 0 … 4, the
  weighted sum picks the word's row, and the gather neither wraps nor clamps the word. The rest of the message (add the
  source row, cut off at zero, scale by the keep flag) is the same entry by entry.
-/
import proofs.«402086_j77008763617336_1_alg».proof.Proof.Shared
import proofs.«402086_j77008763617336_1_alg».proof.Proof.SpecLaws
import proofs.«402086_j77008763617336_1_alg».proof.Proof.LibGatherScatter
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

set_option maxRecDepth 16384

noncomputable section

open scoped BigOperators

namespace Cert.Bridge

open Idealize.ShloMosaic Idealize.ShloMosaic.ValueIdx Cert.ReferenceIdeal Cert.ReferenceIdeal.Read Cert.Shared

/-! ## A fold of writes, read at one position -/

/-- A fold of steps none of which touches position i leaves position i as it was. -/
theorem foldl_untouched {ι κ α : Type} (g : ι → Option κ) (step : (κ → α) → ι → (κ → α)) (i : κ)
    (hmiss : ∀ r n, g n ≠ some i → step r n i = r i) :
    ∀ (l : List ι) (r : κ → α), (∀ n ∈ l, g n ≠ some i) → l.foldl step r i = r i := by
  intro l
  induction l with
  | nil => intro r _; rfl
  | cons a t ih =>
    intro r h
    rw [List.foldl_cons, ih (step r a) (fun n hn => h n (List.mem_cons_of_mem a hn))]
    exact hmiss r a (h a List.mem_cons_self)

/-- A fold of steps over a list without repeats, exactly one of whose entries writes position i, leaves at position i
    what that entry writes: the steps before it are overwritten, the steps after it do not touch the position. -/
theorem foldl_one_writer {ι κ α : Type} (g : ι → Option κ) (v : ι → α) (step : (κ → α) → ι → (κ → α)) (i : κ)
    (hmiss : ∀ r n, g n ≠ some i → step r n i = r i) (hhit : ∀ r n, g n = some i → step r n i = v n) (n0 : ι)
    (h0 : g n0 = some i) :
    ∀ (l : List ι) (r : κ → α), l.Nodup → n0 ∈ l → (∀ n ∈ l, g n = some i → n = n0) → l.foldl step r i = v n0 := by
  intro l
  induction l with
  | nil => intro r _ hm _; exact absurd hm List.not_mem_nil
  | cons a t ih =>
    intro r hnd hm huniq
    rw [List.foldl_cons]
    have hat : a ∉ t := (List.nodup_cons.1 hnd).1
    have hndt : t.Nodup := (List.nodup_cons.1 hnd).2
    by_cases ha : a = n0
    · -- the writer is the head: nothing in the tail writes i
      subst ha
      have htail : ∀ n ∈ t, g n ≠ some i := by
        intro n hn e
        have := huniq n (List.mem_cons_of_mem _ hn) e
        exact hat (this ▸ hn)
      rw [foldl_untouched g step i hmiss t (step r a) htail]
      exact hhit r a h0
    · -- the writer is in the tail
      have hmt : n0 ∈ t := by
        rcases List.mem_cons.1 hm with h | h
        · exact absurd h.symm ha
        · exact h
      exact ih (step r a) hndt hmt (fun n hn => huniq n (List.mem_cons_of_mem _ hn))

/-! ## A block of rows written into a table at start row 0 -/

/-- The first entry of a two-entry list. -/
theorem pair_getElem_zero {β : Type} (l : List β) (a b : β) (hl : l = [a, b]) (k : Nat) (hk : k < l.length) (h0 : k = 0) :
    l[k] = a := by
  subst hl; subst h0; rfl

/-- The second entry of a two-entry list. -/
theorem pair_getElem_one {β : Type} (l : List β) (a b : β) (hl : l = [a, b]) (k : Nat) (hk : k < l.length) (h1 : k = 1) :
    l[k] = b := by
  subst hl; subst h1; rfl

section BlockWrite
variable {N n C : Nat} (d : ScatterDims (LibGS.Sh N C) ⟨1, ![1]⟩ (LibGS.Sh n C))

/-- With no inserted axis the table keeps both of its axes, in order. -/
theorem blk_sKept (hiw : d.insertedWindowDims = []) : d.sKept = [(0 : Fin 2), (1 : Fin 2)] := by
  show (LibGS.Sh N C).kept d.insertedWindowDims = _
  rw [hiw]
  rfl

/-- The one start word being zero, every window starts at zero on both axes. -/
theorem blk_start (idx : IVec ⟨1, ![1]⟩ 32) (hidx : ∀ k, idx k = 0#32) (j : (LibGS.Sh n C).Idx) (a : Fin 2) :
    d.start j idx a = 0 := by
  unfold ScatterDims.start
  split
  · rw [hidx]; rfl
  · rfl

/-- The window coordinate on the row axis is the update's row. -/
theorem blk_window_zero (huw : d.updateWindowDims = [0, 1]) (hiw : d.insertedWindowDims = []) (j : (LibGS.Sh n C).Idx) :
    d.window j (0 : Fin 2) = (j 0).val := by
  have hsk := blk_sKept d hiw
  have hk : (0 : Fin 2) ∈ d.sKept := by rw [hsk]; exact List.mem_cons_self
  unfold ScatterDims.window
  rw [dif_pos hk]
  exact LibGS.idx2_val_congr j _ 0 (pair_getElem_zero _ 0 1 huw _ _ (by rw [hsk]; rfl))

/-- The window coordinate on the column axis is the update's column. -/
theorem blk_window_one (huw : d.updateWindowDims = [0, 1]) (hiw : d.insertedWindowDims = []) (j : (LibGS.Sh n C).Idx) :
    d.window j (1 : Fin 2) = (j 1).val := by
  have hsk := blk_sKept d hiw
  have hk : (1 : Fin 2) ∈ d.sKept := by rw [hsk]; exact List.mem_cons_of_mem _ List.mem_cons_self
  unfold ScatterDims.window
  rw [dif_pos hk]
  exact LibGS.idx2_val_congr j _ 1 (pair_getElem_one _ 0 1 huw _ _ (by rw [hsk]; rfl))

/-- WHERE AN UPDATE ENTRY LANDS: on the table entry with its own two coordinates, and on no other. -/
theorem blk_resultIdx_iff (huw : d.updateWindowDims = [0, 1]) (hiw : d.insertedWindowDims = [])
    (idx : IVec ⟨1, ![1]⟩ 32) (hidx : ∀ k, idx k = 0#32) (j : (LibGS.Sh n C).Idx) (t : (LibGS.Sh N C).Idx) :
    d.resultIdx? j idx = some t ↔ (j 0).val = (t 0).val ∧ (j 1).val = (t 1).val := by
  have hs0 := blk_start d idx hidx j 0
  have hs1 := blk_start d idx hidx j 1
  have hw0 := blk_window_zero d huw hiw j
  have hw1 := blk_window_one d huw hiw j
  have ht0 : (t 0).val < N := idx2_lt0 t
  have ht1 : (t 1).val < C := idx2_lt1 t
  constructor
  · intro h
    unfold ScatterDims.resultIdx? at h
    split at h
    · have hf := Option.some.inj h
      have h0 : (d.start j idx (0 : Fin 2) + d.window j (0 : Fin 2)).toNat = (t 0).val :=
        congrArg (fun f : (LibGS.Sh N C).Idx => (f 0).val) hf
      have h1 : (d.start j idx (1 : Fin 2) + d.window j (1 : Fin 2)).toNat = (t 1).val :=
        congrArg (fun f : (LibGS.Sh N C).Idx => (f 1).val) hf
      rw [hs0, hw0] at h0
      rw [hs1, hw1] at h1
      constructor <;> omega
    · exact absurd h (by simp)
  · rintro ⟨h0, h1⟩
    have hin : ∀ a, 0 ≤ d.start j idx a + d.window j a ∧ d.start j idx a + d.window j a < (LibGS.Sh N C).size a := by
      intro a
      match a with
      | ⟨0, _⟩ =>
        show 0 ≤ d.start j idx (0 : Fin 2) + d.window j (0 : Fin 2) ∧ d.start j idx (0 : Fin 2) + d.window j (0 : Fin 2) < (N : ℤ)
        rw [hs0, hw0]; omega
      | ⟨1, _⟩ =>
        show 0 ≤ d.start j idx (1 : Fin 2) + d.window j (1 : Fin 2) ∧ d.start j idx (1 : Fin 2) + d.window j (1 : Fin 2) < (C : ℤ)
        rw [hs1, hw1]; omega
    unfold ScatterDims.resultIdx?
    rw [dif_pos hin]
    congr 1
    funext a
    apply Fin.ext
    match a with
    | ⟨0, _⟩ =>
      show (d.start j idx (0 : Fin 2) + d.window j (0 : Fin 2)).toNat = (t 0).val
      rw [hs0, hw0]; omega
    | ⟨1, _⟩ =>
      show (d.start j idx (1 : Fin 2) + d.window j (1 : Fin 2)).toNat = (t 1).val
      rw [hs1, hw1]; omega

/-- THE BLOCK WRITE AT ONE ENTRY: row r of the update, when the table has a row r, is what the table holds in row r
    afterwards. Update entry (r, c) is the only one that lands on table entry (r, c). -/
theorem blockWrite_apply {α : Type} (huw : d.updateWindowDims = [0, 1]) (hiw : d.insertedWindowDims = [])
    (x : (LibGS.Sh N C).Idx → α) (idx : IVec ⟨1, ![1]⟩ 32) (hidx : ∀ k, idx k = 0#32) (upd : (LibGS.Sh n C).Idx → α)
    (r : Fin n) (hr : r.val < N) (c : Fin C) :
    Host.scatter d (fun _ b => b) x idx upd (ix2 ⟨r.val, hr⟩ c) = upd (ix2 r c) := by
  have key := fun j => blk_resultIdx_iff d huw hiw idx hidx j (ix2 ⟨r.val, hr⟩ c)
  unfold Host.scatter
  refine (foldl_one_writer (fun m => d.resultIdx? ((LibGS.Sh n C).rowMajor.symm m) idx)
    (fun m => upd ((LibGS.Sh n C).rowMajor.symm m)) _ (ix2 ⟨r.val, hr⟩ c) ?_ ?_ ((LibGS.Sh n C).rowMajor (ix2 r c)) ?_
    _ x (List.nodup_finRange _) (List.mem_finRange _) ?_).trans (congrArg upd (Equiv.symm_apply_apply _ _))
  · -- a step that lands elsewhere, or nowhere, leaves this entry
    intro r' m hne
    generalize d.resultIdx? ((LibGS.Sh n C).rowMajor.symm m) idx = o at hne
    cases o with
    | none => rfl
    | some t =>
      show (if ix2 ⟨r.val, hr⟩ c = t then _ else r' (ix2 ⟨r.val, hr⟩ c)) = _
      rw [if_neg (fun e => hne (congrArg some e.symm))]
  · -- a step that lands here writes its update entry
    intro r' m he
    generalize d.resultIdx? ((LibGS.Sh n C).rowMajor.symm m) idx = o at he
    cases o with
    | none => exact absurd he (by simp)
    | some t =>
      have e : t = ix2 ⟨r.val, hr⟩ c := Option.some.inj he
      show (if ix2 ⟨r.val, hr⟩ c = t then _ else _) = _
      rw [if_pos e.symm]
  · -- update entry (r, c) lands on table entry (r, c)
    show d.resultIdx? ((LibGS.Sh n C).rowMajor.symm ((LibGS.Sh n C).rowMajor (ix2 r c))) idx = some _
    rw [Equiv.symm_apply_apply]
    exact (key (ix2 r c)).2 ⟨rfl, rfl⟩
  · -- and it is the only one that does
    intro m _ he
    have hm := (key ((LibGS.Sh n C).rowMajor.symm m)).1 he
    refine (Equiv.symm_apply_eq _).1 ?_
    funext a
    match a with
    | ⟨0, _⟩ => exact Fin.ext hm.1
    | ⟨1, _⟩ => exact Fin.ext hm.2

end BlockWrite

variable [Cert.ReferenceIdeal.Facts] [Cert.KernelIdeal.Facts]

/-! ## The padded bond table on its first five rows -/

/-- Rows 0 … 4 of the padded table are the bond table's rows: the table of zeros is overwritten there by the 5 × 128
    block written at start row 0. -/
theorem pad_row (x5 : FVec Ideal S5x128 .f32) (r : Fin 5) (hr : r.val < 128) (q : Fin 128) :
    pad x5 (ix2 ⟨r.val, hr⟩ q) = x5 (ix2 r q) := by
  unfold Shared.pad
  exact blockWrite_apply Cert.KernelIdeal.scatter_S128x128_S1_S5x128_01_n_0_0 rfl rfl _ _ (fun k => rfl) x5 r hr q

/-! ## The bond-type word of an edge, as each side reads it -/

/-- A vector of one entry per edge, spread out as a column, read in row e. -/
theorem col_apply {α : Type} (y : S1000000.Idx → α) (e : Fin 1000000) (c : Fin 1) :
    broadcastInDim S1000000x1 ![0] Facts₀.bcast_S1000000_S1000000x1_0 y (ix2 e c) = y (ix1 e) := by
  refine broadcastInDim_apply _ Facts₀.bcast_S1000000_S1000000x1_0 y (ix2 e c) (ix1 e) (fun a => ?_)
  match a with
  | ⟨0, _⟩ =>
    show e.val = if (1000000 : Nat) = 1 then 0 else e.val
    rw [if_neg (by decide)]

/-- Entry e of the bond-type vector is the word in column 2 of row e of the bond list. -/
theorem word_v13 (x1 : IVec S1000000x3 32) (e : Fin 1000000) :
    val_main_v13 (F := Ideal) x1 (ix1 e) = x1 (ix2 e (2 : Fin 3)) := by
  rw [val_main_v13_apply, val_main_v12_apply]
  refine congrArg x1 ?_
  funext a
  match a with
  | ⟨0, _⟩ => exact Fin.ext (Nat.div_one _)
  | ⟨1, _⟩ => rfl

/-- The bond-type column in row e holds that word. -/
theorem word_btCol (x1 : IVec S1000000x3 32) (e : Fin 1000000) :
    btCol x1 (ix2 e 0) = x1 (ix2 e (2 : Fin 3)) := by
  unfold btCol
  rw [col_apply, word_v13]

/-- A word below 5 is not negative, so the wrap-around of negative words leaves it: the gather's index column in
    row e holds that word too. -/
theorem word_sel (x1 : IVec S1000000x3 32) (e : Fin 1000000) (hw : (x1 (ix2 e (2 : Fin 3))).toNat < 5) :
    val_main_v43 (F := Ideal) x1 (ix2 e 0) = x1 (ix2 e (2 : Fin 3)) := by
  unfold val_main_v43
  rw [col_apply, val_main_v42_apply, val_main_v39_apply, word_v13, val_main_v38_apply, val_main_c_7_apply]
  have hnot : IntOp.cmpi .slt (x1 (ix2 e (2 : Fin 3))) 0#32 = 0#1 := by
    refine eq_zero_of_ne_one (fun h => ?_)
    have hlt := (StableHlo.Predicate.slt_iff_toNat (by omega) (by decide)).1 h
    exact absurd hlt (Nat.not_lt_zero _)
  rw [hnot, select_zero]

/-- A word below 5, read signed and clamped into the 5 rows, names the row it counts. -/
theorem rowOf_small (w : BitVec 32) (h : w.toNat < 5) : LibGS.rowOf 5 (by decide) w = ⟨w.toNat, h⟩ := by
  apply Fin.ext
  show min w.toInt.toNat (5 - 1) = w.toNat
  rw [StableHlo.Predicate.toInt_eq_toNat_of_lt (by omega)]
  omega

/-- With every bond-type word below 5, the message over the padded bond table is the message over the bond table's gather. -/
theorem message_eq (hs : FVec Ideal S1000000x128 .f32) (x1 : IVec S1000000x3 32) (x2 : IVec S500000 32) (x3 : IVec S100000 1)
    (x5 : FVec Ideal S5x128 .f32) (hB : ∀ e : Fin 1000000, (x1 (ix2 e (2 : Fin 3))).toNat < 5) :
    Spec.message hs (btCol x1) (pad x5) (val_main_v30 (F := Ideal) x1 x2 x3) = msgR hs (val_main_v44 (F := Ideal) x1 x5) x1 x2 x3 := by
  funext j
  obtain ⟨e, q, rfl⟩ : ∃ (e : Fin 1000000) (q : Fin 128), j = ix2 e q := ⟨j 0, j 1, eq_ix2 j⟩
  have hw := hB e
  -- the gathered bond row of edge e is the row of the bond table that the word counts
  have hE : val_main_v44 (F := Ideal) x1 x5 (ix2 e q) = x5 (ix2 ⟨(x1 (ix2 e (2 : Fin 3))).toNat, hw⟩ q) := by
    unfold val_main_v44
    rw [LibGS.gather_rows_gen gather_S5x128_S1000000x1_S1000000x128_1_0_n_n_0_1_1128 (by decide) rfl rfl rfl rfl rfl rfl x5
      (val_main_v43 (F := Ideal) x1) e q, word_sel x1 e hw, rowOf_small _ hw]
  -- the zero the message is cut off at
  have hz : val_main_call0_v0 (F := Ideal) (ix2 e q) = 0 := by
    rw [val_main_call0_v0_apply, val_main_call0_cst_apply]
    exact Ideal.ofBits_zero_f32
  -- the keep flag of edge e
  have hk : val_main_v54 (F := Ideal) x1 x2 x3 (ix2 e q) = val_main_v30 (F := Ideal) x1 x2 x3 (ix2 e 0) := by
    rw [val_main_v54_apply]
    refine congrArg (val_main_v30 (F := Ideal) x1 x2 x3) ?_
    funext a
    match a with
    | ⟨0, _⟩ => rfl
    | ⟨1, _⟩ => rfl
  have hR : msgR hs (val_main_v44 (F := Ideal) x1 x5) x1 x2 x3 (ix2 e q)
      = max (hs (ix2 e q) + x5 (ix2 ⟨(x1 (ix2 e (2 : Fin 3))).toNat, hw⟩ q)) 0 * val_main_v30 (F := Ideal) x1 x2 x3 (ix2 e 0) := by
    unfold msgR
    rw [mulf_apply, maximumf_apply, addf_apply, hE, hz, hk]
  have hL : Spec.message hs (btCol x1) (pad x5) (val_main_v30 (F := Ideal) x1 x2 x3) (ix2 e q)
      = max (hs (ix2 e q) + x5 (ix2 ⟨(x1 (ix2 e (2 : Fin 3))).toNat, hw⟩ q)) 0 * val_main_v30 (F := Ideal) x1 x2 x3 (ix2 e 0) := by
    show max (hs (ix2 e q) + Spec.pick (btCol x1 (ix2 e 0)) (pad x5) q) 0 * val_main_v30 (F := Ideal) x1 x2 x3 (ix2 e 0) = _
    rw [word_btCol, Spec.pick_of_lt _ _ _ (by omega : (x1 (ix2 e (2 : Fin 3))).toNat < 128),
      pad_row x5 ⟨(x1 (ix2 e (2 : Fin 3))).toNat, hw⟩ _ q]
  rw [hL, hR]

end Cert.Bridge

end
-- ==== Proof.BridgeMlp.lean ====
/-
  The perceptron, two ways. Read at an entry (n, d), a whole matrix product is the sum over k of the left operand at (n, k)
  times the right at (k, d); the bias is broadcast along the rows; the cut-off at zero is entrywise. So the two whole
  products with the bias and cut-off between them are, entry by entry, the row-by-row formula.
-/
import proofs.«402086_j77008763617336_1_alg».proof.Proof.Shared
import proofs.«402086_j77008763617336_1_alg».proof.Proof.SpecLaws
import proofs.«402086_j77008763617336_1_alg».proof.Proof.LibGatherScatter
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

set_option maxRecDepth 16384

noncomputable section

open scoped BigOperators

namespace Cert.Bridge

open Idealize.ShloMosaic Idealize.ShloMosaic.ValueIdx Cert.ReferenceIdeal Cert.ReferenceIdeal.Read Cert.Shared

variable [Cert.ReferenceIdeal.Facts] [Cert.KernelIdeal.Facts]

/-- A whole matrix product of a [500000,128] array with a [128,128] array, read at an entry: the sum over the 128
    values k of the contracted axis of the left operand at (row, k) times the right operand at (k, column). -/
theorem dot_apply (l : FVec Ideal S500000x128 .f32) (r : FVec Ideal S128x128 .f32) (i : S500000x128.Idx) :
    Host.dotGeneral (F := Ideal) dot_S500000x128_S128x128_S500000x128_1_0_0_1_n_n none l r i
      = ∑ k : Fin 128, l (lidx_main_v63 i k) * r (ridx_main_v63 i k) := by
  simp only [Host.dotGeneral]
  rw [Ideal.dotGeneral_apply,
    ← Equiv.sum_comp (ValueIdx.contrEquiv1 dot_S500000x128_S128x128_S500000x128_1_0_0_1_n_n 128 rfl rfl).symm]
  refine Finset.sum_congr rfl fun k _ => ?_
  have hk := ValueIdx.contrEquiv1_symm_val dot_S500000x128_S128x128_S500000x128_1_0_0_1_n_n 128 rfl rfl k
  have el : dot_S500000x128_S128x128_S500000x128_1_0_0_1_n_n.lhsIdx i
      ((ValueIdx.contrEquiv1 dot_S500000x128_S128x128_S500000x128_1_0_0_1_n_n 128 rfl rfl).symm k)
        = lidx_main_v63 i k := funext fun a => Fin.ext (by
    match a with
    | ⟨0, _⟩ => exact lhs_main_v63_0 _ _
    | ⟨1, _⟩ => exact (lhs_main_v63_1 _ _).trans hk)
  have er : dot_S500000x128_S128x128_S500000x128_1_0_0_1_n_n.rhsIdx i
      ((ValueIdx.contrEquiv1 dot_S500000x128_S128x128_S500000x128_1_0_0_1_n_n 128 rfl rfl).symm k)
        = ridx_main_v63 i k := funext fun a => Fin.ext (by
    match a with
    | ⟨0, _⟩ => exact (rhs_main_v63_0 _ _).trans hk
    | ⟨1, _⟩ => exact rhs_main_v63_1 _ _)
  rw [el, er]

/-- The left operand's index at entry (n, d) and contracted value k is (n, k). -/
theorem lidx_ix2 (n : Fin 500000) (d k : Fin 128) : lidx_main_v63 (ix2 n d) k = ix2 n k :=
  funext fun a => Fin.ext (by match a with | ⟨0, _⟩ => rfl | ⟨1, _⟩ => rfl)

/-- The right operand's index at entry (n, d) and contracted value k is (k, d). -/
theorem ridx_ix2 (n : Fin 500000) (d k : Fin 128) : ridx_main_v63 (ix2 n d) k = ix2 k d :=
  funext fun a => Fin.ext (by match a with | ⟨0, _⟩ => rfl | ⟨1, _⟩ => rfl)

/-- The first bias, broadcast along the rows, read at entry (n, d): its entry d. -/
theorem bias1_apply (x8 : FVec Ideal S128 .f32) (n : Fin 500000) (d : Fin 128) :
    val_main_v65 (F := Ideal) x8 (ix2 n d) = x8 (ix1 d) := by
  rw [val_main_v65_apply, val_main_v64_apply]
  congr 1
  exact funext fun a => Fin.ext (by match a with | ⟨0, _⟩ => rfl)

/-- The second bias, broadcast along the rows, read at entry (n, d): its entry d. -/
theorem bias2_apply (x10 : FVec Ideal S128 .f32) (n : Fin 500000) (d : Fin 128) :
    val_main_v70 (F := Ideal) x10 (ix2 n d) = x10 (ix1 d) := by
  rw [val_main_v70_apply, val_main_v69_apply]
  congr 1
  exact funext fun a => Fin.ext (by match a with | ⟨0, _⟩ => rfl)

/-- The broadcast zero, read at any entry: the extended real 0. -/
theorem zero_apply (i : S500000x128.Idx) : val_main_call1_v0 (F := Ideal) i = 0 := by
  rw [val_main_call1_v0_apply, val_main_call1_cst_apply]
  exact Ideal.ofBits_zero_f32

/-- The row-by-row perceptron is the two whole matrix products. -/
theorem mlp_eq (hp : FVec Ideal S500000x128 .f32) (x7 : FVec Ideal S128x128 .f32) (x8 : FVec Ideal S128 .f32)
    (x9 : FVec Ideal S128x128 .f32) (x10 : FVec Ideal S128 .f32) :
    Spec.mlp hp x7 x8 x9 x10 = mlpR hp x7 x8 x9 x10 := by
  funext j
  obtain ⟨n, d, rfl⟩ : ∃ (n : Fin 500000) (d : Fin 128), j = ix2 n d := ⟨j 0, j 1, eq_ix2 j⟩
  -- the right side at (n, d): the outer product's sum over k, plus the second bias at d
  unfold mlpR
  rw [ValueIdx.addf_apply, dot_apply, bias2_apply]
  -- the left side at (n, d) is a sum over the same k plus the same bias: compare the summands
  show (∑ k : Fin 128, Spec.hidden hp x7 x8 n k * x9 (ix2 k d)) + x10 (ix1 d) = _
  congr 1
  refine Finset.sum_congr rfl fun k _ => ?_
  rw [lidx_ix2, ridx_ix2]
  congr 1
  -- the hidden unit k of row n: the inner product's sum over i, plus the first bias at k, cut off at zero
  rw [ValueIdx.maximumf_apply, ValueIdx.addf_apply, dot_apply, bias1_apply, zero_apply]
  unfold Spec.hidden
  congr 2
  refine Finset.sum_congr rfl fun i _ => ?_
  rw [lidx_ix2, ridx_ix2]

end Cert.Bridge

end
-- ==== Proof.Bridge.lean ====
/-
  The two results are equal when the atom-type words and the bond-type words are in range. The results are one common
  function of the atom rows and the bond rows, except that one program looks rows up as weighted sums and writes the
  perceptron row by row. The three differences are equalities of whole arrays (the atom rows, the edge messages for any
  source rows, the perceptron for any input rows), so replacing them one after the other inside the common function
  turns one result into the other.
-/
import proofs.«402086_j77008763617336_1_alg».proof.Proof.BridgeEmbed
import proofs.«402086_j77008763617336_1_alg».proof.Proof.BridgeMessage
import proofs.«402086_j77008763617336_1_alg».proof.Proof.BridgeMlp

noncomputable section

namespace Cert.Bridge

open Idealize.ShloMosaic Idealize.ShloMosaic.ValueIdx Cert.ReferenceIdeal Cert.ReferenceIdeal.Read Cert.Shared

variable [Cert.ReferenceIdeal.Facts] [Cert.KernelIdeal.Facts]

/-- With the index words in range, the result built from weighted sums and the row-by-row perceptron is the reference's. -/
theorem kernelBody_eq (x0 : IVec S500000 32) (x1 : IVec S1000000x3 32) (x2 : IVec S500000 32) (x3 : IVec S100000 1)
    (x4 : FVec Ideal S128x128 .f32) (x5 : FVec Ideal S5x128 .f32) (x6 : FVec Ideal S_ .f32) (x7 : FVec Ideal S128x128 .f32)
    (x8 : FVec Ideal S128 .f32) (x9 : FVec Ideal S128x128 .f32) (x10 : FVec Ideal S128 .f32)
    (hA : ∀ n : Fin 500000, (x0 (ix1 n)).toNat < 128) (hB : ∀ e : Fin 1000000, (x1 (ix2 e (2 : Fin 3))).toNat < 5) :
    kernelBody x0 x1 x2 x3 x4 x5 x6 x7 x8 x9 x10 = val_main_v87 (F := Ideal) x0 x1 x2 x3 x4 x5 x6 x7 x8 x9 x10 := by
  rw [ref_eq]
  unfold kernelBody kA2 kA1 body
  rw [embed_eq_gather x0 x4 hA, message_eq _ x1 x2 x3 x5 hB, mlp_eq]

end Cert.Bridge

end
-- ==== Proof.PreDecode.lean ====
/-
  What the precondition says about the two integer inputs the programs treat differently. The precondition is a
  conjunction of "all" tests; among them are that every atom-type word is at least 0 and below 128, and that every
  bond-type word (column 2 of the bond list) is at least 0 and below 5, both read signed. A word that is at least 0 and
  below n < 2^31 when read signed is below n when read as a natural number, which is the form used downstream.
-/
import proofs.«402086_j77008763617336_1_alg».proof.Pre_finite_inputs
import Idealize.ShloMosaic.PureOps.Ideal
import Idealize.ShloMosaic.Lib.ValueIdx
import Idealize.ShloMosaic.Lib.ReduceAll
import Idealize.ShloMosaic.Lib.StableHlo.Predicate
import Idealize.ShloMosaic.Lib.Pipeline.Value

set_option maxRecDepth 16384

noncomputable section

namespace Cert.PreDecode

open Idealize.ShloMosaic Idealize.ShloMosaic.ValueIdx Cert.Pre_finite_inputs

variable [Cert.Pre_finite_inputs.Facts]

/-- The scalar shape has exactly one index: an index is a function out of the empty set of axes. -/
instance scalarIdx_subsingleton : Subsingleton S_.Idx := ⟨fun a b => funext fun d => d.elim0⟩

/-- A 32-bit word whose signed reading is nonnegative has its top bit clear, so its unsigned reading is below 2^31. -/
theorem toNat_lt_of_sge_zero (w : BitVec 32) (h0 : IntOp.cmpi .sge w 0#32 = 1#1) : w.toNat < 2 ^ 31 := by
  rw [IntOp.cmpi_sge] at h0
  by_contra hc
  have hneg : w.toInt < 0 := by
    rw [BitVec.toInt_eq_toNat_cond]
    have hlt := w.isLt
    split <;> omega
  have hz : (0#32 : BitVec 32).toInt = 0 := by decide
  omega

/-- A word that is at least 0 and below n when both are read signed, with n itself below 2^31, is below n when read
    as a natural number: on words with the top bit clear the signed and the unsigned readings agree. -/
theorem toNat_lt_of_signed_range (w : BitVec 32) (n : Nat) (hn : n < 2 ^ 31)
    (h0 : IntOp.cmpi .sge w 0#32 = 1#1) (h1 : IntOp.cmpi .slt w (BitVec.ofNat 32 n) = 1#1) : w.toNat < n := by
  have hw := toNat_lt_of_sge_zero w h0
  have hb : (BitVec.ofNat 32 n).toNat = n := by
    rw [BitVec.toNat_ofNat]; exact Nat.mod_eq_of_lt (by omega)
  have := (StableHlo.Predicate.slt_iff_toNat hw (by rw [hb]; exact hn)).1 h1
  rwa [hb] at this

/-- One entry of an "at least lo and below hi" test over a whole array: the conjunction of the two compares against
    the two broadcast constants, read at one index, is the conjunction of the two scalar compares. -/
theorem range_at {s : Shape} (hb : S_.BroadcastsInDim s (![] : Fin 0 → Fin s.rank)) (x : IVec s 32) (lo hi : BitVec 32)
    (i : s.Idx)
    (h : andi (cmpi .sge x (broadcastInDim s ![] hb (constantI S_ 32 lo)))
        (cmpi .slt x (broadcastInDim s ![] hb (constantI S_ 32 hi))) i = 1#1) :
    IntOp.cmpi .sge (x i) lo = 1#1 ∧ IntOp.cmpi .slt (x i) hi = 1#1 :=
  IntOp.andi_eq_one.1 h

/-- Column 2 of the bond list, cut out as a one-column array and then flattened, read at edge e, is the word in row e
    and column 2: flattening keeps the row-major position, and the cut shifts the column by 2. -/
theorem bondCol_at (x1 : IVec S1000000x3 32) (e : Fin 1000000) :
    shapeCast S1000000 (extractStridedSlice S1000000x1 ![0, 2] x1 Facts.slices_S1000000x3_S1000000x1_0_2)
      Facts.shapeCasts_S1000000x1_S1000000 (ix1 e) = x1 (ix2 e (2 : Fin 3)) := by
  refine (shapeCast_apply _ Facts.shapeCasts_S1000000x1_S1000000 (ix1 e) (ix2 e (0 : Fin 1)) ?_).trans ?_
  · rw [Shape.rowMajor_val_two, Shape.rowMajor_val_one]
    show e.val * 1 + 0 = e.val
    omega
  · exact extractStridedSlice_apply ![0, 2] x1 Facts.slices_S1000000x3_S1000000x1_0_2 (ix2 e (0 : Fin 1)) (ix2 e (2 : Fin 3))
      (fun a => match a with
        | ⟨0, _⟩ => by show e.val = 0 + e.val; omega
        | ⟨1, _⟩ => by show 2 = 2 + 0; rfl)

/-- Under the precondition every atom-type word names one of the 128 table rows and every bond-type word one of 5. -/
theorem ranges (x0 : IVec S500000 32) (x1 : IVec S1000000x3 32) (x2 : IVec S500000 32) (x3 : IVec S100000 1)
    (x4 : FVec Ideal S128x128 .f32) (x5 : FVec Ideal S5x128 .f32) (x6 : FVec Ideal S_ .f32) (x7 : FVec Ideal S128x128 .f32)
    (x8 : FVec Ideal S128 .f32) (x9 : FVec Ideal S128x128 .f32) (x10 : FVec Ideal S128 .f32)
    (h : Cert.Pre_finite_inputs.fn (F := Ideal) x0 x1 x2 x3 x4 x5 x6 x7 x8 x9 x10 = fun _ => 1#1) :
    (∀ n : Fin 500000, (x0 (ix1 n)).toNat < 128) ∧ (∀ e : Fin 1000000, (x1 (ix2 e (2 : Fin 3))).toNat < 5) := by
  -- the precondition at the one scalar index, with the chain of tests in view
  have e := congrFun h ix0
  unfold Cert.Pre_finite_inputs.fn Cert.Pre_finite_inputs.fn_part1 Cert.Pre_finite_inputs.fn_part2 at e
  dsimp only at e
  -- the chain ends in the two integer tests; the float tests before them are not needed here
  have e2 : IntOp.andi (IntOp.andi _ (Host.reduce IntOp.andi _ _ _ _ ix0)) (Host.reduce IntOp.andi _ _ _ _ ix0) = 1#1 := e
  obtain ⟨hPA, hB⟩ := IntOp.andi_eq_one.1 e2
  obtain ⟨-, hA⟩ := IntOp.andi_eq_one.1 hPA
  refine ⟨fun n => ?_, fun k => ?_⟩
  · -- an "all" that is 1 has a 1 at every atom; there the two compares bound the word
    obtain ⟨h0, h1⟩ := range_at _ x0 _ _ (ix1 n) (Host.reduce_andi_all _ _ _ _ _ hA (ix1 n))
    exact toNat_lt_of_signed_range _ 128 (by norm_num) h0 h1
  · -- the same at every edge, where the tested word is the one in column 2 of the edge's row
    obtain ⟨h0, h1⟩ := range_at _ _ _ _ (ix1 k) (Host.reduce_andi_all _ _ _ _ _ hB (ix1 k))
    rw [bondCol_at] at h0 h1
    exact toNat_lt_of_signed_range _ 5 (by norm_num) h0 h1

end Cert.PreDecode

end
-- ==== Proof.Algebraic.lean ====
/-
  The two idealized programs, run from memories that agree on the arguments, end with equal results. One program's run
  ends with its result buffer at the contents of the last segment boundary, which is the result function `kernelBody`
  of the arguments; the other's run ends with its result at the composed term of its operations, which is the stage
  function of the arguments. Under the precondition the atom-type words are below 128 and the bond-type words below 5,
  and then the two functions agree.
-/
import proofs.«402086_j77008763617336_1_alg».proof.Defs
import proofs.«402086_j77008763617336_1_alg».proof.Proof.KernelRun
import proofs.«402086_j77008763617336_1_alg».proof.Proof.KernelValue
import proofs.«402086_j77008763617336_1_alg».proof.Proof.Bridge
import proofs.«402086_j77008763617336_1_alg».proof.Proof.PreDecode
import proofs.«402086_j77008763617336_1_alg».proof.Proof.Gen.ReferenceIdeal.Read
import proofs.«402086_j77008763617336_1_alg».proof.Proof.Gen.Pre_finite_inputs

set_option maxRecDepth 16384

noncomputable section

namespace Cert.Proof.Parts

open Idealize.ShloMosaic Idealize.ShloMosaic.TcCoe Idealize.SL.Sem

theorem algebraic : Cert.algebraic_KernelIdeal_ReferenceIdeal := by
  intro m g m' g' hpre hagree
  refine ⟨fun c => Cert.Shared.kernelBody (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KValue.result_eq m g c), (h c).2⟩)
      (Cert.KernelIdeal.Gen.run (F := Ideal) m g)
  · refine (θ_run Cert.ReferenceIdeal.defs _ _).mono (fun r h c => ⟨(h c).1.trans ?_, (h c).2⟩)
      (Cert.ReferenceIdeal.Value.run (F := Ideal) m' g')
    obtain ⟨hA, hB⟩ := Cert.PreDecode.ranges (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (hpre c)
    rw [Cert.ReferenceIdeal.Read.val_main_v87_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    exact (Cert.Bridge.kernelBody_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) hA hB).symm

end Cert.Proof.Parts

end
-- ==== Proof.lean ====
/-
  The certificate. The two programs compute one message-passing layer of a molecular graph network: atom rows looked up
  by atom type, edge messages max(source row + bond row, 0) kept or dropped by a per-edge flag, summed at the target
  atoms, mixed with (1 + eps) times the atom's own row, passed through a two-layer perceptron, summed per block and
  divided by the square root of the block's size, with masked blocks zeroed. One program looks the atom and bond rows up
  as sums over all table rows with 0/1 weights and runs the three dense stages in tiled launches; the other gathers from
  the tables and multiplies whole matrices. On the extended reals the two agree whenever every atom-type word names one
  of the 128 atom-table rows and every bond-type word one of the 5 bond-table rows, which the precondition says: the
  weighted sum then has one non-zero term, the gathered row, and the tiled stages are the whole-array ones row by row.

  The three frames are the programs' runs with the results dropped; nothing was rewritten between the first program and
  its idealization, so that claim is trivial; the value claim is `Parts.algebraic`.
-/
import proofs.«402086_j77008763617336_1_alg».proof.Defs
import proofs.«402086_j77008763617336_1_alg».proof.Proof.Gen.Kernel
import proofs.«402086_j77008763617336_1_alg».proof.Proof.Gen.Kernel.Skeleton
import proofs.«402086_j77008763617336_1_alg».proof.Proof.Gen.Kernel.Launch
import proofs.«402086_j77008763617336_1_alg».proof.Proof.Gen.Kernel.Points
import proofs.«402086_j77008763617336_1_alg».proof.Proof.Gen.Kernel.Frame
import proofs.«402086_j77008763617336_1_alg».proof.Proof.Gen.KernelIdeal
import proofs.«402086_j77008763617336_1_alg».proof.Proof.Gen.KernelIdeal.Skeleton
import proofs.«402086_j77008763617336_1_alg».proof.Proof.Gen.KernelIdeal.Launch
import proofs.«402086_j77008763617336_1_alg».proof.Proof.Gen.KernelIdeal.Points
import proofs.«402086_j77008763617336_1_alg».proof.Proof.Gen.KernelIdeal.Frame
import proofs.«402086_j77008763617336_1_alg».proof.Proof.Gen.ReferenceIdeal
import proofs.«402086_j77008763617336_1_alg».proof.Proof.Gen.Pre_finite_inputs
import proofs.«402086_j77008763617336_1_alg».proof.Proof.Gen.ReferenceIdeal.Run
import proofs.«402086_j77008763617336_1_alg».proof.Proof.Gen.ReferenceIdeal.Read
import proofs.«402086_j77008763617336_1_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.Proof.Parts.algebraic⟩

end Cert.Proof

end
